-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x81 : Shape := ⟨3, ![16, 64, 81]⟩
abbrev S16x64x1 : Shape := ⟨3, ![16, 64, 1]⟩
abbrev S16x64 : Shape := ⟨2, ![16, 64]⟩
abbrev S16x2x64 : Shape := ⟨3, ![16, 2, 64]⟩
abbrev S16x64x256x256 : Shape := ⟨4, ![16, 64, 256, 256]⟩
abbrev S_ : Shape := ⟨0, ![]⟩

class Facts : Prop where
  bcast_S_S16x64x81 : S_.BroadcastsInDim S16x64x81 (![] : Fin 0 → Fin S16x64x81.rank)
  reducesTo_S16x64x81_S_d0_1_2 : S16x64x81.ReducesTo [0, 1, 2] S_
  h_S_ : 0 < S_.numel
  bcast_S_S16x64x1 : S_.BroadcastsInDim S16x64x1 (![] : Fin 0 → Fin S16x64x1.rank)
  reducesTo_S16x64x1_S_d0_1_2 : S16x64x1.ReducesTo [0, 1, 2] S_
  bcast_S_S16x64 : S_.BroadcastsInDim S16x64 (![] : Fin 0 → Fin S16x64.rank)
  reducesTo_S16x64_S_d0_1 : S16x64.ReducesTo [0, 1] S_
  bcast_S_S16x64x256x256 : S_.BroadcastsInDim S16x64x256x256 (![] : Fin 0 → Fin S16x64x256x256.rank)
  reducesTo_S16x64x256x256_S_d0_1_2_3 : S16x64x256x256.ReducesTo [0, 1, 2, 3] S_

variable [Facts]

def fn_part1 {F : FTy → Type} [FloatOps F] (main_arg6 : FVec F S16x64 .f32) (main_v13 : IVec S_ 1) (main_v16 : IVec S16x64x256x256 1) : IVec S_ 1 :=
  let main_c_5 : IVec S_ 1 := constantI S_ 1 1#1
  let main_v17 : IVec S_ 1 := (fun x v => Host.reduce IntOp.andi x v reducesTo_S16x64x256x256_S_d0_1_2_3 h_S_) main_v16 main_c_5
  let main_v18 : IVec S_ 1 := andi main_v13 main_v17
  let main_v19 : FVec F S16x64 .f32 := Host.absf main_arg6
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  main_v23

def fn {F : FTy → Type} [FloatOps F] (main_arg0 : FVec F S16x64x81 .f32) (main_arg1 : FVec F S16x64x1 .f32) (main_arg2 : IVec S16x64 32) (main_arg3 : IVec S16x2x64 32) (main_arg4 : FVec F S16x64 .f32) (main_arg5 : FVec F S16x64x256x256 .f32) (main_arg6 : FVec F S16x64 .f32) : IVec S_ 1 :=
  let main_v0 : FVec F S16x64x81 .f32 := Host.absf main_arg0
  let main_cst : FVec F S_ .f32 := constant S_ .f32 0x7F800000#32
  let main_v1 : FVec F S16x64x81 .f32 := broadcastInDim S16x64x81 ![] bcast_S_S16x64x81 main_cst
  let main_v2 : IVec S16x64x81 1 := cmpf .olt main_v0 main_v1
  let main_c : IVec S_ 1 := constantI S_ 1 1#1
  let main_v3 : IVec S_ 1 := (fun x v => Host.reduce IntOp.andi x v reducesTo_S16x64x81_S_d0_1_2 h_S_) main_v2 main_c
  let main_v4 : FVec F S16x64x1 .f32 := Host.absf main_arg1
  let main_cst_0 : FVec F S_ .f32 := constant S_ .f32 0x7F800000#32
  let main_v5 : FVec F S16x64x1 .f32 := broadcastInDim S16x64x1 ![] bcast_S_S16x64x1 main_cst_0
  let main_v6 : IVec S16x64x1 1 := cmpf .olt main_v4 main_v5
  let main_c_1 : IVec S_ 1 := constantI S_ 1 1#1
  let main_v7 : IVec S_ 1 := (fun x v => Host.reduce IntOp.andi x v reducesTo_S16x64x1_S_d0_1_2 h_S_) main_v6 main_c_1
  let main_v8 : IVec S_ 1 := andi main_v3 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S16x64x256x256 .f32 := Host.absf main_arg5
  let main_cst_4 : FVec F S_ .f32 := constant S_ .f32 0x7F800000#32
  let main_v15 : FVec F S16x64x256x256 .f32 := broadcastInDim S16x64x256x256 ![] bcast_S_S16x64x256x256 main_cst_4
  let main_v16 : IVec S16x64x256x256 1 := cmpf .olt main_v14 main_v15
  fn_part1 (F := F) main_arg6 main_v13 main_v16
-- ==== Kernel.lean ====
abbrev S16x64x81 : Shape := ⟨3, ![16, 64, 81]⟩
abbrev S16x64x1 : Shape := ⟨3, ![16, 64, 1]⟩
abbrev S16x64 : Shape := ⟨2, ![16, 64]⟩
abbrev S16x2x64 : Shape := ⟨3, ![16, 2, 64]⟩
abbrev S16x64x256x256 : Shape := ⟨4, ![16, 64, 256, 256]⟩
abbrev S_ : Shape := ⟨0, ![]⟩
abbrev S81 : Shape := ⟨1, ![81]⟩
abbrev S16x1x63 : Shape := ⟨3, ![16, 1, 63]⟩
abbrev S16x63 : Shape := ⟨2, ![16, 63]⟩
abbrev S16x63x1 : Shape := ⟨3, ![16, 63, 1]⟩
abbrev S1 : Shape := ⟨1, ![1]⟩
abbrev S1x1x1 : Shape := ⟨3, ![1, 1, 1]⟩
abbrev S16x16x4 : Shape := ⟨3, ![16, 16, 4]⟩
abbrev S16x63x81 : Shape := ⟨3, ![16, 63, 81]⟩
abbrev S16x63x1x1 : Shape := ⟨4, ![16, 63, 1, 1]⟩
abbrev S1x1x1x1 : Shape := ⟨4, ![1, 1, 1, 1]⟩
abbrev S16x4x256x256 : Shape := ⟨4, ![16, 4, 256, 256]⟩
abbrev S1x16x4 : Shape := ⟨3, ![1, 16, 4]⟩
abbrev S16x4 : Shape := ⟨2, ![16, 4]⟩
abbrev S16x4x32x256 : Shape := ⟨4, ![16, 4, 32, 256]⟩
abbrev S16x4x32 : Shape := ⟨3, ![16, 4, 32]⟩

abbrev nBuf : Space → Nat
  | .hbm => 232
  | .vmem => 5
  | .smem => 0
  | _ => 0

abbrev hbmTy0_0 (i : Nat) : BufTy := match i % 128 with
  | 0 => ⟨S16x64x81, .f32⟩
  | 1 => ⟨S16x64x1, .f32⟩
  | 2 => ⟨S16x64, .i32⟩
  | 3 => ⟨S16x2x64, .i32⟩
  | 4 => ⟨S16x64, .f32⟩
  | 5 => ⟨S16x64x256x256, .f32⟩
  | 6 => ⟨S16x64, .f32⟩
  | 7 => ⟨S_, .f32⟩
  | 8 => ⟨S81, .f32⟩
  | 9 => ⟨S16x1x63, .i32⟩
  | 10 => ⟨S16x63, .i32⟩
  | 11 => ⟨S16x1x63, .i32⟩
  | 12 => ⟨S16x63, .i32⟩
  | 13 => ⟨S_, .i32⟩
  | 14 => ⟨S16x63, .i32⟩
  | 15 => ⟨S16x63, .i1⟩
  | 16 => ⟨S_, .i32⟩
  | 17 => ⟨S16x63, .i32⟩
  | 18 => ⟨S16x63, .i32⟩
  | 19 => ⟨S16x63, .i32⟩
  | 20 => ⟨S16x63x1, .i32⟩
  | 21 => ⟨S1, .i32⟩
  | 22 => ⟨S_, .i32⟩
  | 23 => ⟨S16x63x1, .i32⟩
  | 24 => ⟨S16x63x1, .i1⟩
  | 25 => ⟨S1x1x1, .i32⟩
  | 26 => ⟨S16x63x1, .i32⟩
  | 27 => ⟨S16x63x1, .i1⟩
  | 28 => ⟨S16x63x1, .i1⟩
  | 29 => ⟨S_, .i1⟩
  | 30 => ⟨S16x63, .i1⟩
  | 31 => ⟨S16x63, .i32⟩
  | 32 => ⟨S_, .i32⟩
  | 33 => ⟨S16x63, .i32⟩
  | 34 => ⟨S16x63, .i32⟩
  | 35 => ⟨S_, .i32⟩
  | 36 => ⟨S16x63, .i32⟩
  | 37 => ⟨S16x63, .i32⟩
  | 38 => ⟨S_, .i32⟩
  | 39 => ⟨S16x63, .i32⟩
  | 40 => ⟨S16x63, .i32⟩
  | 41 => ⟨S_, .i32⟩
  | 42 => ⟨S16x63, .i32⟩
  | 43 => ⟨S16x63, .i32⟩
  | 44 => ⟨S16x63, .i32⟩
  | 45 => ⟨S16x63, .f32⟩
  | 46 => ⟨S16x16x4, .f32⟩
  | 47 => ⟨S16x16x4, .f32⟩
  | 48 => ⟨S16x64, .f32⟩
  | 49 => ⟨S_, .i32⟩
  | 50 => ⟨S16x63, .i32⟩
  | 51 => ⟨S16x63, .i1⟩
  | 52 => ⟨S_, .i32⟩
  | 53 => ⟨S16x63, .i32⟩
  | 54 => ⟨S16x63, .i32⟩
  | 55 => ⟨S16x63, .i32⟩
  | 56 => ⟨S16x63x1, .i32⟩
  | 57 => ⟨S1, .i32⟩
  | 58 => ⟨S_, .i32⟩
  | 59 => ⟨S16x63x1, .i32⟩
  | 60 => ⟨S16x63x1, .i1⟩
  | 61 => ⟨S1x1x1, .i32⟩
  | 62 => ⟨S16x63x1, .i32⟩
  | 63 => ⟨S16x63x1, .i1⟩
  | 64 => ⟨S16x63x1, .i1⟩
  | 65 => ⟨S_, .i1⟩
  | 66 => ⟨S16x63, .i1⟩
  | 67 => ⟨S16x63, .f32⟩
  | 68 => ⟨S_, .f32⟩
  | 69 => ⟨S16x63, .f32⟩
  | 70 => ⟨S16x63, .f32⟩
  | 71 => ⟨S16x63, .f32⟩
  | 72 => ⟨S_, .f32⟩
  | 73 => ⟨S16x63, .f32⟩
  | 74 => ⟨S16x63, .i1⟩
  | 75 => ⟨S_, .f32⟩
  | 76 => ⟨S16x63, .f32⟩
  | 77 => ⟨S16x63, .i1⟩
  | 78 => ⟨S16x63, .i1⟩
  | 79 => ⟨S_, .f32⟩
  | 80 => ⟨S16x63, .f32⟩
  | 81 => ⟨S_, .f32⟩
  | 82 => ⟨S16x63, .f32⟩
  | 83 => ⟨S16x63, .i1⟩
  | 84 => ⟨S1, .f32⟩
  | 85 => ⟨S_, .f32⟩
  | 86 => ⟨S_, .i32⟩
  | 87 => ⟨S16x63, .i32⟩
  | 88 => ⟨S16x63, .i1⟩
  | 89 => ⟨S_, .i32⟩
  | 90 => ⟨S16x63, .i32⟩
  | 91 => ⟨S16x63, .i32⟩
  | 92 => ⟨S16x63, .i32⟩
  | 93 => ⟨S16x63x1, .i32⟩
  | 94 => ⟨S16x63, .f32⟩
  | 95 => ⟨S1, .f32⟩
  | 96 => ⟨S_, .f32⟩
  | 97 => ⟨S16x63, .f32⟩
  | 98 => ⟨S16x63, .f32⟩
  | 99 => ⟨S16x63, .f32⟩
  | 100 => ⟨S16x63, .f32⟩
  | 101 => ⟨S16x63, .f32⟩
  | 102 => ⟨S16x64, .f32⟩
  | 103 => ⟨S_, .i32⟩
  | 104 => ⟨S16x63, .i32⟩
  | 105 => ⟨S16x63, .i1⟩
  | 106 => ⟨S_, .i32⟩
  | 107 => ⟨S16x63, .i32⟩
  | 108 => ⟨S16x63, .i32⟩
  | 109 => ⟨S16x63, .i32⟩
  | 110 => ⟨S16x63x1, .i32⟩
  | 111 => ⟨S1, .i32⟩
  | 112 => ⟨S_, .i32⟩
  | 113 => ⟨S16x63x1, .i32⟩
  | 114 => ⟨S16x63x1, .i1⟩
  | 115 => ⟨S1x1x1, .i32⟩
  | 116 => ⟨S16x63x1, .i32⟩
  | 117 => ⟨S16x63x1, .i1⟩
  | 118 => ⟨S16x63x1, .i1⟩
  | 119 => ⟨S_, .i1⟩
  | 120 => ⟨S16x63, .i1⟩
  | 121 => ⟨S16x63, .f32⟩
  | 122 => ⟨S_, .f32⟩
  | 123 => ⟨S16x63, .f32⟩
  | 124 => ⟨S16x63, .f32⟩
  | 125 => ⟨S16x63, .f32⟩
  | 126 => ⟨S16x63, .f32⟩
  | 127 => ⟨S_, .f32⟩
  | _ => ⟨S16x64x81, .f32⟩

abbrev hbmTy0_1 (i : Nat) : BufTy := match i % 128 with
  | 0 => ⟨S16x63, .f32⟩
  | 1 => ⟨S16x63, .i1⟩
  | 2 => ⟨S16x63, .f32⟩
  | 3 => ⟨S16x63, .f32⟩
  | 4 => ⟨S16x63, .f32⟩
  | 5 => ⟨S_, .f32⟩
  | 6 => ⟨S16x63, .f32⟩
  | 7 => ⟨S16x63, .f32⟩
  | 8 => ⟨S_, .f32⟩
  | 9 => ⟨S16x63, .f32⟩
  | 10 => ⟨S16x63, .f32⟩
  | 11 => ⟨S_, .f32⟩
  | 12 => ⟨S16x63, .f32⟩
  | 13 => ⟨S16x63, .f32⟩
  | 14 => ⟨S_, .f32⟩
  | 15 => ⟨S16x63, .f32⟩
  | 16 => ⟨S16x63, .f32⟩
  | 17 => ⟨S16x63, .f32⟩
  | 18 => ⟨S16x63, .f32⟩
  | 19 => ⟨S16x63x1, .i32⟩
  | 20 => ⟨S_, .i32⟩
  | 21 => ⟨S16x63x1, .i32⟩
  | 22 => ⟨S16x63x1, .i1⟩
  | 23 => ⟨S_, .i32⟩
  | 24 => ⟨S16x63x1, .i32⟩
  | 25 => ⟨S16x63x1, .i32⟩
  | 26 => ⟨S16x63x1, .i32⟩
  | 27 => ⟨S1, .i32⟩
  | 28 => ⟨S_, .i32⟩
  | 29 => ⟨S16x63x1, .i32⟩
  | 30 => ⟨S16x63x1, .i1⟩
  | 31 => ⟨S1x1x1, .i32⟩
  | 32 => ⟨S16x63x1, .i32⟩
  | 33 => ⟨S16x63x1, .i1⟩
  | 34 => ⟨S16x63x1, .i1⟩
  | 35 => ⟨S_, .i1⟩
  | 36 => ⟨S16x63, .i1⟩
  | 37 => ⟨S16x63x81, .f32⟩
  | 38 => ⟨S16x63x81, .i1⟩
  | 39 => ⟨S_, .f32⟩
  | 40 => ⟨S16x63x81, .f32⟩
  | 41 => ⟨S16x63x81, .f32⟩
  | 42 => ⟨S_, .f32⟩
  | 43 => ⟨S16x63, .f32⟩
  | 44 => ⟨S_, .f32⟩
  | 45 => ⟨S16x63, .f32⟩
  | 46 => ⟨S16x63, .f32⟩
  | 47 => ⟨S16x63x1, .f32⟩
  | 48 => ⟨S16x63x81, .f32⟩
  | 49 => ⟨S16x63x81, .f32⟩
  | 50 => ⟨S16x63x81, .f32⟩
  | 51 => ⟨S_, .f32⟩
  | 52 => ⟨S16x63, .f32⟩
  | 53 => ⟨S16x63x1, .f32⟩
  | 54 => ⟨S16x63x1, .f32⟩
  | 55 => ⟨S16x63x81, .f32⟩
  | 56 => ⟨S16x63x81, .f32⟩
  | 57 => ⟨S_, .i32⟩
  | 58 => ⟨S16x63, .i32⟩
  | 59 => ⟨S16x63, .i1⟩
  | 60 => ⟨S_, .i32⟩
  | 61 => ⟨S16x63, .i32⟩
  | 62 => ⟨S16x63, .i32⟩
  | 63 => ⟨S16x63, .i32⟩
  | 64 => ⟨S16x63x1, .i32⟩
  | 65 => ⟨S16x63, .f32⟩
  | 66 => ⟨S16x63, .f32⟩
  | 67 => ⟨S16x63x1, .i32⟩
  | 68 => ⟨S_, .i32⟩
  | 69 => ⟨S16x63x1, .i32⟩
  | 70 => ⟨S16x63x1, .i1⟩
  | 71 => ⟨S_, .i32⟩
  | 72 => ⟨S16x63x1, .i32⟩
  | 73 => ⟨S16x63x1, .i32⟩
  | 74 => ⟨S16x63x1, .i32⟩
  | 75 => ⟨S16x63x1x1, .i32⟩
  | 76 => ⟨S1, .i32⟩
  | 77 => ⟨S_, .i32⟩
  | 78 => ⟨S16x63x1x1, .i32⟩
  | 79 => ⟨S16x63x1x1, .i1⟩
  | 80 => ⟨S1x1x1x1, .i32⟩
  | 81 => ⟨S16x63x1x1, .i32⟩
  | 82 => ⟨S16x63x1x1, .i1⟩
  | 83 => ⟨S16x63x1x1, .i1⟩
  | 84 => ⟨S_, .i1⟩
  | 85 => ⟨S16x63x1, .i1⟩
  | 86 => ⟨S16x63x1, .f32⟩
  | 87 => ⟨S_, .f32⟩
  | 88 => ⟨S16x63x1, .f32⟩
  | 89 => ⟨S16x63x1, .f32⟩
  | 90 => ⟨S16x63, .f32⟩
  | 91 => ⟨S16x63, .f32⟩
  | 92 => ⟨S_, .f32⟩
  | 93 => ⟨S_, .f32⟩
  | 94 => ⟨S_, .f32⟩
  | 95 => ⟨S_, .f32⟩
  | 96 => ⟨S16x63, .f32⟩
  | 97 => ⟨S_, .f32⟩
  | 98 => ⟨S_, .f32⟩
  | 99 => ⟨S_, .f32⟩
  | 100 => ⟨S16x63, .f32⟩
  | 101 => ⟨S_, .f32⟩
  | 102 => ⟨S_, .f32⟩
  | 103 => ⟨S_, .f32⟩
  | _ => ⟨S16x64x81, .f32⟩

abbrev hbmTy (i : Nat) : BufTy := match i / 128 with
  | 0 => hbmTy0_0 i
  | 1 => hbmTy0_1 i
  | _ => ⟨S16x64x81, .f32⟩

abbrev bufTy : (tb : Table) → Fin (tcTables nBuf tb) → BufTy
  | .hbm, ⟨i, _⟩ => hbmTy i
  | .local _ .vmem, ⟨0, _⟩ => ⟨S16x4x256x256, .f32⟩
  | .local _ .vmem, ⟨1, _⟩ => ⟨S16x4x256x256, .f32⟩
  | .local _ .vmem, ⟨2, _⟩ => ⟨S1x16x4, .f32⟩
  | .local _ .vmem, ⟨3, _⟩ => ⟨S1x16x4, .f32⟩
  | .local _ .vmem, ⟨4, _⟩ => ⟨S16x4, .f32⟩
  | _, _ => ⟨S16x64x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_call0_c : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_c_0 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_c_1 : Ref sig .tc := ⟨.hbm, 21, rfl⟩
abbrev main_call0_call0_c_2 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_c_3 : Ref sig .tc := ⟨.hbm, 29, rfl⟩
abbrev main_call0_call0_v12 : Ref sig .tc := ⟨.hbm, 30, rfl⟩
abbrev main_call0_call0_v13 : Ref sig .tc := ⟨.hbm, 31, rfl⟩
abbrev main_call0_call0_c_4 : Ref sig .tc := ⟨.hbm, 32, rfl⟩
abbrev main_call0_call0_v14 : Ref sig .tc := ⟨.hbm, 33, rfl⟩
abbrev main_call0_v5 : Ref sig .tc := ⟨.hbm, 34, rfl⟩
abbrev main_call0_c : Ref sig .tc := ⟨.hbm, 35, rfl⟩
abbrev main_call0_v6 : Ref sig .tc := ⟨.hbm, 36, rfl⟩
abbrev main_call0_v7 : Ref sig .tc := ⟨.hbm, 37, rfl⟩
abbrev main_call0_c_0 : Ref sig .tc := ⟨.hbm, 38, rfl⟩
abbrev main_call0_v8 : Ref sig .tc := ⟨.hbm, 39, rfl⟩
abbrev main_call0_v9 : Ref sig .tc := ⟨.hbm, 40, rfl⟩
abbrev main_call0_c_1 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_call0_call1_c : Ref sig .tc := ⟨.hbm, 49, rfl⟩
abbrev main_call0_call1_v0 : Ref sig .tc := ⟨.hbm, 50, rfl⟩
abbrev main_call0_call1_v1 : Ref sig .tc := ⟨.hbm, 51, rfl⟩
abbrev main_call0_call1_c_0 : Ref sig .tc := ⟨.hbm, 52, rfl⟩
abbrev main_call0_call1_v2 : Ref sig .tc := ⟨.hbm, 53, rfl⟩
abbrev main_call0_call1_v3 : Ref sig .tc := ⟨.hbm, 54, rfl⟩
abbrev main_call0_call1_v4 : Ref sig .tc := ⟨.hbm, 55, rfl⟩
abbrev main_call0_call1_v5 : Ref sig .tc := ⟨.hbm, 56, rfl⟩
abbrev main_call0_call1_c_1 : Ref sig .tc := ⟨.hbm, 57, rfl⟩
abbrev main_call0_call1_c_2 : Ref sig .tc := ⟨.hbm, 58, rfl⟩
abbrev main_call0_call1_v6 : Ref sig .tc := ⟨.hbm, 59, rfl⟩
abbrev main_call0_call1_v7 : Ref sig .tc := ⟨.hbm, 60, rfl⟩
abbrev main_call0_call1_v8 : Ref sig .tc := ⟨.hbm, 61, rfl⟩
abbrev main_call0_call1_v9 : Ref sig .tc := ⟨.hbm, 62, rfl⟩
abbrev main_call0_call1_v10 : Ref sig .tc := ⟨.hbm, 63, rfl⟩
abbrev main_call0_call1_v11 : Ref sig .tc := ⟨.hbm, 64, rfl⟩
abbrev main_call0_call1_c_3 : Ref sig .tc := ⟨.hbm, 65, rfl⟩
abbrev main_call0_call1_v12 : Ref sig .tc := ⟨.hbm, 66, rfl⟩
abbrev main_call0_call1_v13 : Ref sig .tc := ⟨.hbm, 67, rfl⟩
abbrev main_call0_call1_cst : Ref sig .tc := ⟨.hbm, 68, rfl⟩
abbrev main_call0_call1_v14 : Ref sig .tc := ⟨.hbm, 69, rfl⟩
abbrev main_call0_v17 : Ref sig .tc := ⟨.hbm, 70, rfl⟩
abbrev main_call0_v18 : Ref sig .tc := ⟨.hbm, 71, rfl⟩
abbrev main_call0_cst_2 : Ref sig .tc := ⟨.hbm, 72, rfl⟩
abbrev main_call0_v19 : Ref sig .tc := ⟨.hbm, 73, rfl⟩
abbrev main_call0_v20 : Ref sig .tc := ⟨.hbm, 74, rfl⟩
abbrev main_call0_cst_3 : Ref sig .tc := ⟨.hbm, 75, rfl⟩
abbrev main_call0_v21 : Ref sig .tc := ⟨.hbm, 76, rfl⟩
abbrev main_call0_v22 : Ref sig .tc := ⟨.hbm, 77, rfl⟩
abbrev main_call0_v23 : Ref sig .tc := ⟨.hbm, 78, rfl⟩
abbrev main_call0_cst_4 : Ref sig .tc := ⟨.hbm, 79, rfl⟩
abbrev main_call0_v24 : Ref sig .tc := ⟨.hbm, 80, rfl⟩
abbrev main_call0_cst_5 : Ref sig .tc := ⟨.hbm, 81, rfl⟩
abbrev main_call0_v25 : Ref sig .tc := ⟨.hbm, 82, rfl⟩
abbrev main_call0_v26 : Ref sig .tc := ⟨.hbm, 83, rfl⟩
abbrev main_call0_v27 : Ref sig .tc := ⟨.hbm, 84, rfl⟩
abbrev main_call0_v28 : Ref sig .tc := ⟨.hbm, 85, rfl⟩
abbrev main_call0_c_6 : Ref sig .tc := ⟨.hbm, 86, rfl⟩
abbrev main_call0_v29 : Ref sig .tc := ⟨.hbm, 87, rfl⟩
abbrev main_call0_v30 : Ref sig .tc := ⟨.hbm, 88, rfl⟩
abbrev main_call0_c_7 : Ref sig .tc := ⟨.hbm, 89, rfl⟩
abbrev main_call0_v31 : Ref sig .tc := ⟨.hbm, 90, rfl⟩
abbrev main_call0_v32 : Ref sig .tc := ⟨.hbm, 91, rfl⟩
abbrev main_call0_v33 : Ref sig .tc := ⟨.hbm, 92, rfl⟩
abbrev main_call0_v34 : Ref sig .tc := ⟨.hbm, 93, rfl⟩
abbrev main_call0_v35 : Ref sig .tc := ⟨.hbm, 94, rfl⟩
abbrev main_call0_v36 : Ref sig .tc := ⟨.hbm, 95, rfl⟩
abbrev main_call0_v37 : Ref sig .tc := ⟨.hbm, 96, rfl⟩
abbrev main_call0_v38 : Ref sig .tc := ⟨.hbm, 97, rfl⟩
abbrev main_call0_v39 : Ref sig .tc := ⟨.hbm, 98, rfl⟩
abbrev main_call0_call2_v0 : Ref sig .tc := ⟨.hbm, 99, rfl⟩
abbrev main_call0_v40 : Ref sig .tc := ⟨.hbm, 100, rfl⟩
abbrev main_call0_v41 : Ref sig .tc := ⟨.hbm, 101, rfl⟩
abbrev main_call0_v42 : Ref sig .tc := ⟨.hbm, 102, rfl⟩
abbrev main_call0_call4_c : Ref sig .tc := ⟨.hbm, 103, rfl⟩
abbrev main_call0_call4_v0 : Ref sig .tc := ⟨.hbm, 104, rfl⟩
abbrev main_call0_call4_v1 : Ref sig .tc := ⟨.hbm, 105, rfl⟩
abbrev main_call0_call4_c_0 : Ref sig .tc := ⟨.hbm, 106, rfl⟩
abbrev main_call0_call4_v2 : Ref sig .tc := ⟨.hbm, 107, rfl⟩
abbrev main_call0_call4_v3 : Ref sig .tc := ⟨.hbm, 108, rfl⟩
abbrev main_call0_call4_v4 : Ref sig .tc := ⟨.hbm, 109, rfl⟩
abbrev main_call0_call4_v5 : Ref sig .tc := ⟨.hbm, 110, rfl⟩
abbrev main_call0_call4_c_1 : Ref sig .tc := ⟨.hbm, 111, rfl⟩
abbrev main_call0_call4_c_2 : Ref sig .tc := ⟨.hbm, 112, rfl⟩
abbrev main_call0_call4_v6 : Ref sig .tc := ⟨.hbm, 113, rfl⟩
abbrev main_call0_call4_v7 : Ref sig .tc := ⟨.hbm, 114, rfl⟩
abbrev main_call0_call4_v8 : Ref sig .tc := ⟨.hbm, 115, rfl⟩
abbrev main_call0_call4_v9 : Ref sig .tc := ⟨.hbm, 116, rfl⟩
abbrev main_call0_call4_v10 : Ref sig .tc := ⟨.hbm, 117, rfl⟩
abbrev main_call0_call4_v11 : Ref sig .tc := ⟨.hbm, 118, rfl⟩
abbrev main_call0_call4_c_3 : Ref sig .tc := ⟨.hbm, 119, rfl⟩
abbrev main_call0_call4_v12 : Ref sig .tc := ⟨.hbm, 120, rfl⟩
abbrev main_call0_call4_v13 : Ref sig .tc := ⟨.hbm, 121, rfl⟩
abbrev main_call0_call4_cst : Ref sig .tc := ⟨.hbm, 122, rfl⟩
abbrev main_call0_call4_v14 : Ref sig .tc := ⟨.hbm, 123, rfl⟩
abbrev main_call0_v43 : Ref sig .tc := ⟨.hbm, 124, rfl⟩
abbrev main_call0_v44 : Ref sig .tc := ⟨.hbm, 125, rfl⟩
abbrev main_call0_v45 : Ref sig .tc := ⟨.hbm, 126, rfl⟩
abbrev main_call0_cst_8 : Ref sig .tc := ⟨.hbm, 127, rfl⟩
abbrev main_call0_v46 : Ref sig .tc := ⟨.hbm, 128, rfl⟩
abbrev main_call0_v47 : Ref sig .tc := ⟨.hbm, 129, rfl⟩
abbrev main_call0_v48 : Ref sig .tc := ⟨.hbm, 130, rfl⟩
abbrev main_call0_v49 : Ref sig .tc := ⟨.hbm, 131, rfl⟩
abbrev main_call0_v50 : Ref sig .tc := ⟨.hbm, 132, rfl⟩
abbrev main_call0_cst_9 : Ref sig .tc := ⟨.hbm, 133, rfl⟩
abbrev main_call0_v51 : Ref sig .tc := ⟨.hbm, 134, rfl⟩
abbrev main_call0_v52 : Ref sig .tc := ⟨.hbm, 135, rfl⟩
abbrev main_call0_cst_10 : Ref sig .tc := ⟨.hbm, 136, rfl⟩
abbrev main_call0_v53 : Ref sig .tc := ⟨.hbm, 137, rfl⟩
abbrev main_call0_v54 : Ref sig .tc := ⟨.hbm, 138, rfl⟩
abbrev main_call0_cst_11 : Ref sig .tc := ⟨.hbm, 139, rfl⟩
abbrev main_call0_v55 : Ref sig .tc := ⟨.hbm, 140, rfl⟩
abbrev main_call0_v56 : Ref sig .tc := ⟨.hbm, 141, rfl⟩
abbrev main_call0_cst_12 : Ref sig .tc := ⟨.hbm, 142, rfl⟩
abbrev main_call0_v57 : Ref sig .tc := ⟨.hbm, 143, rfl⟩
abbrev main_call0_v58 : Ref sig .tc := ⟨.hbm, 144, rfl⟩
abbrev main_call0_v59 : Ref sig .tc := ⟨.hbm, 145, rfl⟩
abbrev main_call0_v60 : Ref sig .tc := ⟨.hbm, 146, rfl⟩
abbrev main_call0_v61 : Ref sig .tc := ⟨.hbm, 147, rfl⟩
abbrev main_call0_call5_c : Ref sig .tc := ⟨.hbm, 148, rfl⟩
abbrev main_call0_call5_v0 : Ref sig .tc := ⟨.hbm, 149, rfl⟩
abbrev main_call0_call5_v1 : Ref sig .tc := ⟨.hbm, 150, rfl⟩
abbrev main_call0_call5_c_0 : Ref sig .tc := ⟨.hbm, 151, rfl⟩
abbrev main_call0_call5_v2 : Ref sig .tc := ⟨.hbm, 152, rfl⟩
abbrev main_call0_call5_v3 : Ref sig .tc := ⟨.hbm, 153, rfl⟩
abbrev main_call0_call5_v4 : Ref sig .tc := ⟨.hbm, 154, rfl⟩
abbrev main_call0_call5_c_1 : Ref sig .tc := ⟨.hbm, 155, rfl⟩
abbrev main_call0_call5_c_2 : Ref sig .tc := ⟨.hbm, 156, rfl⟩
abbrev main_call0_call5_v5 : Ref sig .tc := ⟨.hbm, 157, rfl⟩
abbrev main_call0_call5_v6 : Ref sig .tc := ⟨.hbm, 158, rfl⟩
abbrev main_call0_call5_v7 : Ref sig .tc := ⟨.hbm, 159, rfl⟩
abbrev main_call0_call5_v8 : Ref sig .tc := ⟨.hbm, 160, rfl⟩
abbrev main_call0_call5_v9 : Ref sig .tc := ⟨.hbm, 161, rfl⟩
abbrev main_call0_call5_v10 : Ref sig .tc := ⟨.hbm, 162, rfl⟩
abbrev main_call0_call5_c_3 : Ref sig .tc := ⟨.hbm, 163, rfl⟩
abbrev main_call0_call5_v11 : Ref sig .tc := ⟨.hbm, 164, rfl⟩
abbrev main_call0_call5_v12 : Ref sig .tc := ⟨.hbm, 165, rfl⟩
abbrev main_call0_call5_v13 : Ref sig .tc := ⟨.hbm, 166, rfl⟩
abbrev main_call0_call5_cst : Ref sig .tc := ⟨.hbm, 167, rfl⟩
abbrev main_call0_call5_v14 : Ref sig .tc := ⟨.hbm, 168, rfl⟩
abbrev main_call0_v62 : Ref sig .tc := ⟨.hbm, 169, rfl⟩
abbrev main_call0_call6_cst : Ref sig .tc := ⟨.hbm, 170, rfl⟩
abbrev main_call0_call6_v0 : Ref sig .tc := ⟨.hbm, 171, rfl⟩
abbrev main_call0_call6_cst_0 : Ref sig .tc := ⟨.hbm, 172, rfl⟩
abbrev main_call0_call6_v1 : Ref sig .tc := ⟨.hbm, 173, rfl⟩
abbrev main_call0_call6_v2 : Ref sig .tc := ⟨.hbm, 174, rfl⟩
abbrev main_call0_call6_v3 : Ref sig .tc := ⟨.hbm, 175, rfl⟩
abbrev main_call0_call6_v4 : Ref sig .tc := ⟨.hbm, 176, rfl⟩
abbrev main_call0_call6_v5 : Ref sig .tc := ⟨.hbm, 177, rfl⟩
abbrev main_call0_call6_v6 : Ref sig .tc := ⟨.hbm, 178, rfl⟩
abbrev main_call0_call6_cst_1 : Ref sig .tc := ⟨.hbm, 179, rfl⟩
abbrev main_call0_call6_v7 : Ref sig .tc := ⟨.hbm, 180, rfl⟩
abbrev main_call0_call6_v8 : Ref sig .tc := ⟨.hbm, 181, rfl⟩
abbrev main_call0_call6_v9 : Ref sig .tc := ⟨.hbm, 182, rfl⟩
abbrev main_call0_call6_v10 : Ref sig .tc := ⟨.hbm, 183, rfl⟩
abbrev main_call0_v63 : Ref sig .tc := ⟨.hbm, 184, rfl⟩
abbrev main_call0_c_13 : Ref sig .tc := ⟨.hbm, 185, rfl⟩
abbrev main_call0_v64 : Ref sig .tc := ⟨.hbm, 186, rfl⟩
abbrev main_call0_v65 : Ref sig .tc := ⟨.hbm, 187, rfl⟩
abbrev main_call0_c_14 : Ref sig .tc := ⟨.hbm, 188, rfl⟩
abbrev main_call0_v66 : Ref sig .tc := ⟨.hbm, 189, rfl⟩
abbrev main_call0_v67 : Ref sig .tc := ⟨.hbm, 190, rfl⟩
abbrev main_call0_v68 : Ref sig .tc := ⟨.hbm, 191, rfl⟩
abbrev main_call0_v69 : Ref sig .tc := ⟨.hbm, 192, rfl⟩
abbrev main_call0_v70 : Ref sig .tc := ⟨.hbm, 193, rfl⟩
abbrev main_call0_v71 : Ref sig .tc := ⟨.hbm, 194, rfl⟩
abbrev main_call0_v72 : Ref sig .tc := ⟨.hbm, 195, rfl⟩
abbrev main_call0_call7_c : Ref sig .tc := ⟨.hbm, 196, rfl⟩
abbrev main_call0_call7_v0 : Ref sig .tc := ⟨.hbm, 197, rfl⟩
abbrev main_call0_call7_v1 : Ref sig .tc := ⟨.hbm, 198, rfl⟩
abbrev main_call0_call7_c_0 : Ref sig .tc := ⟨.hbm, 199, rfl⟩
abbrev main_call0_call7_v2 : Ref sig .tc := ⟨.hbm, 200, rfl⟩
abbrev main_call0_call7_v3 : Ref sig .tc := ⟨.hbm, 201, rfl⟩
abbrev main_call0_call7_v4 : Ref sig .tc := ⟨.hbm, 202, rfl⟩
abbrev main_call0_call7_v5 : Ref sig .tc := ⟨.hbm, 203, rfl⟩
abbrev main_call0_call7_c_1 : Ref sig .tc := ⟨.hbm, 204, rfl⟩
abbrev main_call0_call7_c_2 : Ref sig .tc := ⟨.hbm, 205, rfl⟩
abbrev main_call0_call7_v6 : Ref sig .tc := ⟨.hbm, 206, rfl⟩
abbrev main_call0_call7_v7 : Ref sig .tc := ⟨.hbm, 207, rfl⟩
abbrev main_call0_call7_v8 : Ref sig .tc := ⟨.hbm, 208, rfl⟩
abbrev main_call0_call7_v9 : Ref sig .tc := ⟨.hbm, 209, rfl⟩
abbrev main_call0_call7_v10 : Ref sig .tc := ⟨.hbm, 210, rfl⟩
abbrev main_call0_call7_v11 : Ref sig .tc := ⟨.hbm, 211, rfl⟩
abbrev main_call0_call7_c_3 : Ref sig .tc := ⟨.hbm, 212, rfl⟩
abbrev main_call0_call7_v12 : Ref sig .tc := ⟨.hbm, 213, rfl⟩
abbrev main_call0_call7_v13 : Ref sig .tc := ⟨.hbm, 214, rfl⟩
abbrev main_call0_call7_cst : Ref sig .tc := ⟨.hbm, 215, rfl⟩
abbrev main_call0_call7_v14 : Ref sig .tc := ⟨.hbm, 216, rfl⟩
abbrev main_call0_v73 : Ref sig .tc := ⟨.hbm, 217, rfl⟩
abbrev main_call0_v74 : Ref sig .tc := ⟨.hbm, 218, rfl⟩
abbrev main_call0_v75 : Ref sig .tc := ⟨.hbm, 219, rfl⟩
abbrev main_call0_cst_15 : Ref sig .tc := ⟨.hbm, 220, rfl⟩
abbrev main_call0_v76 : Ref sig .tc := ⟨.hbm, 221, rfl⟩
abbrev main_call0_cst_16 : Ref sig .tc := ⟨.hbm, 222, rfl⟩
abbrev main_call0_v77 : Ref sig .tc := ⟨.hbm, 223, rfl⟩
abbrev main_call0_v78 : Ref sig .tc := ⟨.hbm, 224, rfl⟩
abbrev main_call0_cst_17 : Ref sig .tc := ⟨.hbm, 225, rfl⟩
abbrev main_call0_v79 : Ref sig .tc := ⟨.hbm, 226, rfl⟩
abbrev main_v0_0 : Ref sig .tc := ⟨.hbm, 227, rfl⟩
abbrev main_call0_v81 : Ref sig .tc := ⟨.hbm, 228, rfl⟩
abbrev main_call0_cst_18 : Ref sig .tc := ⟨.hbm, 229, rfl⟩
abbrev main_call0_v82 : Ref sig .tc := ⟨.hbm, 230, rfl⟩
abbrev main_v0_1 : Ref sig .tc := ⟨.hbm, 231, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c32_i32 : BitVec 32 := 32#32
  let v9 : BitVec 32 := Scalar.muli arg4 c32_i32
  v9
def k0_off1 (k0_t1 : Fin k0_t1_loop.trips) : Fin 4 → Nat :=
  let c0_7 : Index := 0#32
  let c0_8 : Index := 0#32
  let c0_i32 : BitVec 32 := 0#32
  let c1_i32 : BitVec 32 := 1#32
  let arg4 : BitVec 32 := Scf.iv c0_i32 c1_i32 k0_t1
  let c32_i32 : BitVec 32 := 32#32
  let v9 : BitVec 32 := Scalar.muli arg4 c32_i32
  let v10 : BitVec 32 := v9
  let v11 : Index := Scalar.indexCast v10
  let c0_9 : Index := 0#32
  ![0, 0, v11.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S81 : S_.BroadcastsInDim S81 (![] : Fin 0 → Fin S81.rank)
  slices_S16x2x64_S16x1x63_0_0_1 : S16x2x64.Slices ![0, 0, 1] S16x1x63
  shapeCasts_S16x1x63_S16x63 : S16x1x63.ShapeCasts S16x63
  slices_S16x2x64_S16x1x63_0_1_1 : S16x2x64.Slices ![0, 1, 1] S16x1x63
  bcast_S_S16x63 : S_.BroadcastsInDim S16x63 (![] : Fin 0 → Fin S16x63.rank)
  shapeCasts_S16x63_S16x63x1 : S16x63.ShapeCasts S16x63x1
  bcast_S_S16x63x1 : S_.BroadcastsInDim S16x63x1 (![] : Fin 0 → Fin S16x63x1.rank)
  bcast_S1_S1x1x1_2 : S1.BroadcastsInDim S1x1x1 (![2] : Fin 1 → Fin S1x1x1.rank)
  bcast_S1x1x1_S16x63x1_0_1_2 : S1x1x1.BroadcastsInDim S16x63x1 (![0, 1, 2] : Fin 3 → Fin S16x63x1.rank)
  reducesTo_S16x63x1_S16x63_d2 : S16x63x1.ReducesTo [2] S16x63
  h_S_ : 0 < S_.numel
  slices_S16x64_S16x63_0_1 : S16x64.Slices ![0, 1] S16x63
  transposes_S16x16x4_S16x16x4_1_0_2 : S16x16x4.Transposes [1, 0, 2] S16x16x4
  shapeCasts_S16x16x4_S16x64 : S16x16x4.ShapeCasts S16x64
  slices_S81_S1_0 : S81.Slices ![0] S1
  shapeCasts_S1_S_ : S1.ShapeCasts S_
  bcast_S16x63_S16x63x1_0_1 : S16x63.BroadcastsInDim S16x63x1 (![0, 1] : Fin 2 → Fin S16x63x1.rank)
  shapeCasts_S16x64x1_S16x64 : S16x64x1.ShapeCasts S16x64
  bcast_S16x63_S16x63x81_0_1 : S16x63.BroadcastsInDim S16x63x81 (![0, 1] : Fin 2 → Fin S16x63x81.rank)
  bcast_S_S16x63x81 : S_.BroadcastsInDim S16x63x81 (![] : Fin 0 → Fin S16x63x81.rank)
  reducesTo_S16x63x81_S16x63_d2 : S16x63x81.ReducesTo [2] S16x63
  bcast_S16x63x1_S16x63x81_0_1_2 : S16x63x1.BroadcastsInDim S16x63x81 (![0, 1, 2] : Fin 3 → Fin S16x63x81.rank)
  shapeCasts_S16x63x1_S16x63x1x1 : S16x63x1.ShapeCasts S16x63x1x1
  bcast_S_S16x63x1x1 : S_.BroadcastsInDim S16x63x1x1 (![] : Fin 0 → Fin S16x63x1x1.rank)
  bcast_S1_S1x1x1x1_3 : S1.BroadcastsInDim S1x1x1x1 (![3] : Fin 1 → Fin S1x1x1x1.rank)
  bcast_S1x1x1x1_S16x63x1x1_0_1_2_3 : S1x1x1x1.BroadcastsInDim S16x63x1x1 (![0, 1, 2, 3] : Fin 4 → Fin S16x63x1x1.rank)
  reducesTo_S16x63x1x1_S16x63x1_d3 : S16x63x1x1.ReducesTo [3] S16x63x1
  shapeCasts_S16x63x1_S16x63 : S16x63x1.ShapeCasts S16x63
  reducesTo_S16x63_S_d0_1 : S16x63.ReducesTo [0, 1] S_
  inb_S16x4_S16x4_0_0 : ∀ a, (![0, 0] : Fin 2 → Nat) a + S16x4.size a ≤ S16x4.size a
  h_S16x4 : 0 < S16x4.numel
  shapeCasts_S16x4_S16x4 : S16x4.ShapeCasts S16x4
  h_S16x4x32x256 : 0 < S16x4x32x256.numel
  reduces_S16x4x32x256_S16x4x32 : S16x4x32x256.Reduces [3] S16x4x32
  reduces_S16x4x32_S16x4 : S16x4x32.Reduces [2] S16x4
  inb_S1x16x4_S1x16x4_0_0_0 : ∀ a, (![0, 0, 0] : Fin 3 → Nat) a + S1x16x4.size a ≤ S1x16x4.size a
  h_S1x16x4 : 0 < S1x16x4.numel
  shapeCasts_S1x16x4_S16x4 : S1x16x4.ShapeCasts S16x4
  shapeCasts_S16x4_S1x16x4 : S16x4.ShapeCasts S1x16x4
  gather_S16x64_S16x63x1_S16x63_n_1_0_0_1_2_11_wf : GatherDims.WF S16x64 S16x63x1 S16x63 [] [1] [0] [1] [0] 2 ![1, 1]
  gather_S81_S16x63x1_S16x63_n_0_n_n_0_2_1_wf : GatherDims.WF S81 S16x63x1 S16x63 [] [0] [] [0] [] 2 ![1]
  gather_S16x64x81_S16x63x1_S16x63x81_2_1_0_0_1_2_1181_wf : GatherDims.WF S16x64x81 S16x63x1 S16x63x81 [2] [1] [0] [1] [0] 2 ![1, 1, 81]
  gather_S16x63x81_S16x63x1x1_S16x63x1_n_2_01_01_2_3_111_wf : GatherDims.WF S16x63x81 S16x63x1x1 S16x63x1 [] [2] [0, 1] [2] [0, 1] 3 ![1, 1, 1]
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S16x4x32x256.size a ≤ S16x4x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4x256x256.size a ≤ S16x64x256x256.size a
  hwx0_0 : ∀ i : grid0.Coords, EltTy.bits .f32 = 32 ∨ (Rect.block (s := S16x64x256x256) S16x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x4.size a ≤ S16x16x4.size a
  hwx0_1 : ∀ i : grid0.Coords, EltTy.bits .f32 = 32 ∨ (Rect.block (s := S16x16x4) S1x16x4.size (cc0_transform_1 i) (hinb0_1 i)).WholeWords (EltTy.packing .f32)

variable [Facts₀]

def gather_S16x64_S16x63x1_S16x63_n_1_0_0_1_2_11 : GatherDims S16x64 S16x63x1 S16x63 where
  offsetDims := []
  collapsedSliceDims := [1]
  operandBatchingDims := [0]
  startIndicesBatchingDims := [0]
  startIndexMap := [1]
  indexVectorDim := 2
  sliceSizes := ![1, 1]
  wf := gather_S16x64_S16x63x1_S16x63_n_1_0_0_1_2_11_wf
def gather_S81_S16x63x1_S16x63_n_0_n_n_0_2_1 : GatherDims S81 S16x63x1 S16x63 where
  offsetDims := []
  collapsedSliceDims := [0]
  operandBatchingDims := []
  startIndicesBatchingDims := []
  startIndexMap := [0]
  indexVectorDim := 2
  sliceSizes := ![1]
  wf := gather_S81_S16x63x1_S16x63_n_0_n_n_0_2_1_wf
def gather_S16x64x81_S16x63x1_S16x63x81_2_1_0_0_1_2_1181 : GatherDims S16x64x81 S16x63x1 S16x63x81 where
  offsetDims := [2]
  collapsedSliceDims := [1]
  operandBatchingDims := [0]
  startIndicesBatchingDims := [0]
  startIndexMap := [1]
  indexVectorDim := 2
  sliceSizes := ![1, 1, 81]
  wf := gather_S16x64x81_S16x63x1_S16x63x81_2_1_0_0_1_2_1181_wf
def gather_S16x63x81_S16x63x1x1_S16x63x1_n_2_01_01_2_3_111 : GatherDims S16x63x81 S16x63x1x1 S16x63x1 where
  offsetDims := []
  collapsedSliceDims := [2]
  operandBatchingDims := [0, 1]
  startIndicesBatchingDims := [0, 1]
  startIndexMap := [2]
  indexVectorDim := 3
  sliceSizes := ![1, 1, 1]
  wf := gather_S16x63x81_S16x63x1x1_S16x63x1_n_2_01_01_2_3_111_wf

abbrev win0_0 : Pipeline.Window sig grid0 :=
  Pipeline.Window.ofSpec (Memref.whole main_arg5) S16x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v14) S1x16x4.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x81 : Shape := ⟨3, ![16, 64, 81]⟩
abbrev S16x64x1 : Shape := ⟨3, ![16, 64, 1]⟩
abbrev S16x64 : Shape := ⟨2, ![16, 64]⟩
abbrev S16x2x64 : Shape := ⟨3, ![16, 2, 64]⟩
abbrev S16x64x256x256 : Shape := ⟨4, ![16, 64, 256, 256]⟩
abbrev S_ : Shape := ⟨0, ![]⟩
abbrev S81 : Shape := ⟨1, ![81]⟩
abbrev S16x1x63 : Shape := ⟨3, ![16, 1, 63]⟩
abbrev S16x63 : Shape := ⟨2, ![16, 63]⟩
abbrev S16x63x1 : Shape := ⟨3, ![16, 63, 1]⟩
abbrev S1 : Shape := ⟨1, ![1]⟩
abbrev S1x1x1 : Shape := ⟨3, ![1, 1, 1]⟩
abbrev S16x64x65536 : Shape := ⟨3, ![16, 64, 65536]⟩
abbrev S16x63x81 : Shape := ⟨3, ![16, 63, 81]⟩
abbrev S16x63x1x1 : Shape := ⟨4, ![16, 63, 1, 1]⟩
abbrev S1x1x1x1 : Shape := ⟨4, ![1, 1, 1, 1]⟩

abbrev nBuf : Space → Nat
  | .hbm => 232
  | .vmem => 0
  | .smem => 0
  | _ => 0

abbrev hbmTy0_0 (i : Nat) : BufTy := match i % 128 with
  | 0 => ⟨S16x64x81, .f32⟩
  | 1 => ⟨S16x64x1, .f32⟩
  | 2 => ⟨S16x64, .i32⟩
  | 3 => ⟨S16x2x64, .i32⟩
  | 4 => ⟨S16x64, .f32⟩
  | 5 => ⟨S16x64x256x256, .f32⟩
  | 6 => ⟨S16x64, .f32⟩
  | 7 => ⟨S_, .f32⟩
  | 8 => ⟨S81, .f32⟩
  | 9 => ⟨S16x1x63, .i32⟩
  | 10 => ⟨S16x63, .i32⟩
  | 11 => ⟨S16x1x63, .i32⟩
  | 12 => ⟨S16x63, .i32⟩
  | 13 => ⟨S_, .i32⟩
  | 14 => ⟨S16x63, .i32⟩
  | 15 => ⟨S16x63, .i1⟩
  | 16 => ⟨S_, .i32⟩
  | 17 => ⟨S16x63, .i32⟩
  | 18 => ⟨S16x63, .i32⟩
  | 19 => ⟨S16x63, .i32⟩
  | 20 => ⟨S16x63x1, .i32⟩
  | 21 => ⟨S1, .i32⟩
  | 22 => ⟨S_, .i32⟩
  | 23 => ⟨S16x63x1, .i32⟩
  | 24 => ⟨S16x63x1, .i1⟩
  | 25 => ⟨S1x1x1, .i32⟩
  | 26 => ⟨S16x63x1, .i32⟩
  | 27 => ⟨S16x63x1, .i1⟩
  | 28 => ⟨S16x63x1, .i1⟩
  | 29 => ⟨S_, .i1⟩
  | 30 => ⟨S16x63, .i1⟩
  | 31 => ⟨S16x63, .i32⟩
  | 32 => ⟨S_, .i32⟩
  | 33 => ⟨S16x63, .i32⟩
  | 34 => ⟨S16x63, .i32⟩
  | 35 => ⟨S_, .i32⟩
  | 36 => ⟨S16x63, .i32⟩
  | 37 => ⟨S16x63, .i32⟩
  | 38 => ⟨S_, .i32⟩
  | 39 => ⟨S16x63, .i32⟩
  | 40 => ⟨S16x63, .i32⟩
  | 41 => ⟨S_, .i32⟩
  | 42 => ⟨S16x63, .i32⟩
  | 43 => ⟨S16x63, .i32⟩
  | 44 => ⟨S16x63, .i32⟩
  | 45 => ⟨S16x63, .f32⟩
  | 46 => ⟨S16x64x65536, .f32⟩
  | 47 => ⟨S_, .f32⟩
  | 48 => ⟨S16x64, .f32⟩
  | 49 => ⟨S_, .i32⟩
  | 50 => ⟨S16x63, .i32⟩
  | 51 => ⟨S16x63, .i1⟩
  | 52 => ⟨S_, .i32⟩
  | 53 => ⟨S16x63, .i32⟩
  | 54 => ⟨S16x63, .i32⟩
  | 55 => ⟨S16x63, .i32⟩
  | 56 => ⟨S16x63x1, .i32⟩
  | 57 => ⟨S1, .i32⟩
  | 58 => ⟨S_, .i32⟩
  | 59 => ⟨S16x63x1, .i32⟩
  | 60 => ⟨S16x63x1, .i1⟩
  | 61 => ⟨S1x1x1, .i32⟩
  | 62 => ⟨S16x63x1, .i32⟩
  | 63 => ⟨S16x63x1, .i1⟩
  | 64 => ⟨S16x63x1, .i1⟩
  | 65 => ⟨S_, .i1⟩
  | 66 => ⟨S16x63, .i1⟩
  | 67 => ⟨S16x63, .f32⟩
  | 68 => ⟨S_, .f32⟩
  | 69 => ⟨S16x63, .f32⟩
  | 70 => ⟨S16x63, .f32⟩
  | 71 => ⟨S16x63, .f32⟩
  | 72 => ⟨S_, .f32⟩
  | 73 => ⟨S16x63, .f32⟩
  | 74 => ⟨S16x63, .i1⟩
  | 75 => ⟨S_, .f32⟩
  | 76 => ⟨S16x63, .f32⟩
  | 77 => ⟨S16x63, .i1⟩
  | 78 => ⟨S16x63, .i1⟩
  | 79 => ⟨S_, .f32⟩
  | 80 => ⟨S16x63, .f32⟩
  | 81 => ⟨S_, .f32⟩
  | 82 => ⟨S16x63, .f32⟩
  | 83 => ⟨S16x63, .i1⟩
  | 84 => ⟨S1, .f32⟩
  | 85 => ⟨S_, .f32⟩
  | 86 => ⟨S_, .i32⟩
  | 87 => ⟨S16x63, .i32⟩
  | 88 => ⟨S16x63, .i1⟩
  | 89 => ⟨S_, .i32⟩
  | 90 => ⟨S16x63, .i32⟩
  | 91 => ⟨S16x63, .i32⟩
  | 92 => ⟨S16x63, .i32⟩
  | 93 => ⟨S16x63x1, .i32⟩
  | 94 => ⟨S16x63, .f32⟩
  | 95 => ⟨S1, .f32⟩
  | 96 => ⟨S_, .f32⟩
  | 97 => ⟨S16x63, .f32⟩
  | 98 => ⟨S16x63, .f32⟩
  | 99 => ⟨S16x63, .f32⟩
  | 100 => ⟨S16x63, .f32⟩
  | 101 => ⟨S16x63, .f32⟩
  | 102 => ⟨S16x64, .f32⟩
  | 103 => ⟨S_, .i32⟩
  | 104 => ⟨S16x63, .i32⟩
  | 105 => ⟨S16x63, .i1⟩
  | 106 => ⟨S_, .i32⟩
  | 107 => ⟨S16x63, .i32⟩
  | 108 => ⟨S16x63, .i32⟩
  | 109 => ⟨S16x63, .i32⟩
  | 110 => ⟨S16x63x1, .i32⟩
  | 111 => ⟨S1, .i32⟩
  | 112 => ⟨S_, .i32⟩
  | 113 => ⟨S16x63x1, .i32⟩
  | 114 => ⟨S16x63x1, .i1⟩
  | 115 => ⟨S1x1x1, .i32⟩
  | 116 => ⟨S16x63x1, .i32⟩
  | 117 => ⟨S16x63x1, .i1⟩
  | 118 => ⟨S16x63x1, .i1⟩
  | 119 => ⟨S_, .i1⟩
  | 120 => ⟨S16x63, .i1⟩
  | 121 => ⟨S16x63, .f32⟩
  | 122 => ⟨S_, .f32⟩
  | 123 => ⟨S16x63, .f32⟩
  | 124 => ⟨S16x63, .f32⟩
  | 125 => ⟨S16x63, .f32⟩
  | 126 => ⟨S16x63, .f32⟩
  | 127 => ⟨S_, .f32⟩
  | _ => ⟨S16x64x81, .f32⟩

abbrev hbmTy0_1 (i : Nat) : BufTy := match i % 128 with
  | 0 => ⟨S16x63, .f32⟩
  | 1 => ⟨S16x63, .i1⟩
  | 2 => ⟨S16x63, .f32⟩
  | 3 => ⟨S16x63, .f32⟩
  | 4 => ⟨S16x63, .f32⟩
  | 5 => ⟨S_, .f32⟩
  | 6 => ⟨S16x63, .f32⟩
  | 7 => ⟨S16x63, .f32⟩
  | 8 => ⟨S_, .f32⟩
  | 9 => ⟨S16x63, .f32⟩
  | 10 => ⟨S16x63, .f32⟩
  | 11 => ⟨S_, .f32⟩
  | 12 => ⟨S16x63, .f32⟩
  | 13 => ⟨S16x63, .f32⟩
  | 14 => ⟨S_, .f32⟩
  | 15 => ⟨S16x63, .f32⟩
  | 16 => ⟨S16x63, .f32⟩
  | 17 => ⟨S16x63, .f32⟩
  | 18 => ⟨S16x63, .f32⟩
  | 19 => ⟨S16x63x1, .i32⟩
  | 20 => ⟨S_, .i32⟩
  | 21 => ⟨S16x63x1, .i32⟩
  | 22 => ⟨S16x63x1, .i1⟩
  | 23 => ⟨S_, .i32⟩
  | 24 => ⟨S16x63x1, .i32⟩
  | 25 => ⟨S16x63x1, .i32⟩
  | 26 => ⟨S16x63x1, .i32⟩
  | 27 => ⟨S1, .i32⟩
  | 28 => ⟨S_, .i32⟩
  | 29 => ⟨S16x63x1, .i32⟩
  | 30 => ⟨S16x63x1, .i1⟩
  | 31 => ⟨S1x1x1, .i32⟩
  | 32 => ⟨S16x63x1, .i32⟩
  | 33 => ⟨S16x63x1, .i1⟩
  | 34 => ⟨S16x63x1, .i1⟩
  | 35 => ⟨S_, .i1⟩
  | 36 => ⟨S16x63, .i1⟩
  | 37 => ⟨S16x63x81, .f32⟩
  | 38 => ⟨S16x63x81, .i1⟩
  | 39 => ⟨S_, .f32⟩
  | 40 => ⟨S16x63x81, .f32⟩
  | 41 => ⟨S16x63x81, .f32⟩
  | 42 => ⟨S_, .f32⟩
  | 43 => ⟨S16x63, .f32⟩
  | 44 => ⟨S_, .f32⟩
  | 45 => ⟨S16x63, .f32⟩
  | 46 => ⟨S16x63, .f32⟩
  | 47 => ⟨S16x63x1, .f32⟩
  | 48 => ⟨S16x63x81, .f32⟩
  | 49 => ⟨S16x63x81, .f32⟩
  | 50 => ⟨S16x63x81, .f32⟩
  | 51 => ⟨S_, .f32⟩
  | 52 => ⟨S16x63, .f32⟩
  | 53 => ⟨S16x63x1, .f32⟩
  | 54 => ⟨S16x63x1, .f32⟩
  | 55 => ⟨S16x63x81, .f32⟩
  | 56 => ⟨S16x63x81, .f32⟩
  | 57 => ⟨S_, .i32⟩
  | 58 => ⟨S16x63, .i32⟩
  | 59 => ⟨S16x63, .i1⟩
  | 60 => ⟨S_, .i32⟩
  | 61 => ⟨S16x63, .i32⟩
  | 62 => ⟨S16x63, .i32⟩
  | 63 => ⟨S16x63, .i32⟩
  | 64 => ⟨S16x63x1, .i32⟩
  | 65 => ⟨S16x63, .f32⟩
  | 66 => ⟨S16x63, .f32⟩
  | 67 => ⟨S16x63x1, .i32⟩
  | 68 => ⟨S_, .i32⟩
  | 69 => ⟨S16x63x1, .i32⟩
  | 70 => ⟨S16x63x1, .i1⟩
  | 71 => ⟨S_, .i32⟩
  | 72 => ⟨S16x63x1, .i32⟩
  | 73 => ⟨S16x63x1, .i32⟩
  | 74 => ⟨S16x63x1, .i32⟩
  | 75 => ⟨S16x63x1x1, .i32⟩
  | 76 => ⟨S1, .i32⟩
  | 77 => ⟨S_, .i32⟩
  | 78 => ⟨S16x63x1x1, .i32⟩
  | 79 => ⟨S16x63x1x1, .i1⟩
  | 80 => ⟨S1x1x1x1, .i32⟩
  | 81 => ⟨S16x63x1x1, .i32⟩
  | 82 => ⟨S16x63x1x1, .i1⟩
  | 83 => ⟨S16x63x1x1, .i1⟩
  | 84 => ⟨S_, .i1⟩
  | 85 => ⟨S16x63x1, .i1⟩
  | 86 => ⟨S16x63x1, .f32⟩
  | 87 => ⟨S_, .f32⟩
  | 88 => ⟨S16x63x1, .f32⟩
  | 89 => ⟨S16x63x1, .f32⟩
  | 90 => ⟨S16x63, .f32⟩
  | 91 => ⟨S16x63, .f32⟩
  | 92 => ⟨S_, .f32⟩
  | 93 => ⟨S_, .f32⟩
  | 94 => ⟨S_, .f32⟩
  | 95 => ⟨S_, .f32⟩
  | 96 => ⟨S16x63, .f32⟩
  | 97 => ⟨S_, .f32⟩
  | 98 => ⟨S_, .f32⟩
  | 99 => ⟨S_, .f32⟩
  | 100 => ⟨S16x63, .f32⟩
  | 101 => ⟨S_, .f32⟩
  | 102 => ⟨S_, .f32⟩
  | 103 => ⟨S_, .f32⟩
  | _ => ⟨S16x64x81, .f32⟩

abbrev hbmTy (i : Nat) : BufTy := match i / 128 with
  | 0 => hbmTy0_0 i
  | 1 => hbmTy0_1 i
  | _ => ⟨S16x64x81, .f32⟩

abbrev bufTy : (tb : Table) → Fin (tcTables nBuf tb) → BufTy
  | .hbm, ⟨i, _⟩ => hbmTy i
  | _, _ => ⟨S16x64x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_c_4 : Ref sig .tc := ⟨.hbm, 32, rfl⟩
abbrev main_call0_v14 : Ref sig .tc := ⟨.hbm, 33, rfl⟩
abbrev main_v5 : Ref sig .tc := ⟨.hbm, 34, rfl⟩
abbrev main_c : Ref sig .tc := ⟨.hbm, 35, rfl⟩
abbrev main_v6 : Ref sig .tc := ⟨.hbm, 36, rfl⟩
abbrev main_v7 : Ref sig .tc := ⟨.hbm, 37, rfl⟩
abbrev main_c_0 : Ref sig .tc := ⟨.hbm, 38, rfl⟩
abbrev main_v8 : Ref sig .tc := ⟨.hbm, 39, rfl⟩
abbrev main_v9 : Ref sig .tc := ⟨.hbm, 40, rfl⟩
abbrev main_c_1 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_2 : Ref sig .tc := ⟨.hbm, 47, rfl⟩
abbrev main_v15 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_cst : Ref sig .tc := ⟨.hbm, 68, rfl⟩
abbrev main_call1_v14 : Ref sig .tc := ⟨.hbm, 69, rfl⟩
abbrev main_v16 : Ref sig .tc := ⟨.hbm, 70, rfl⟩
abbrev main_v17 : Ref sig .tc := ⟨.hbm, 71, rfl⟩
abbrev main_cst_3 : Ref sig .tc := ⟨.hbm, 72, rfl⟩
abbrev main_v18 : Ref sig .tc := ⟨.hbm, 73, rfl⟩
abbrev main_v19 : Ref sig .tc := ⟨.hbm, 74, rfl⟩
abbrev main_cst_4 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_5 : Ref sig .tc := ⟨.hbm, 79, rfl⟩
abbrev main_v23 : Ref sig .tc := ⟨.hbm, 80, rfl⟩
abbrev main_cst_6 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_7 : Ref sig .tc := ⟨.hbm, 86, rfl⟩
abbrev main_v28 : Ref sig .tc := ⟨.hbm, 87, rfl⟩
abbrev main_v29 : Ref sig .tc := ⟨.hbm, 88, rfl⟩
abbrev main_c_8 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_call2_v0 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_cst_9 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_cst_10 : Ref sig .tc := ⟨.hbm, 133, rfl⟩
abbrev main_v50 : Ref sig .tc := ⟨.hbm, 134, rfl⟩
abbrev main_v51 : Ref sig .tc := ⟨.hbm, 135, rfl⟩
abbrev main_cst_11 : Ref sig .tc := ⟨.hbm, 136, rfl⟩
abbrev main_v52 : Ref sig .tc := ⟨.hbm, 137, rfl⟩
abbrev main_v53 : Ref sig .tc := ⟨.hbm, 138, rfl⟩
abbrev main_cst_12 : Ref sig .tc := ⟨.hbm, 139, rfl⟩
abbrev main_v54 : Ref sig .tc := ⟨.hbm, 140, rfl⟩
abbrev main_v55 : Ref sig .tc := ⟨.hbm, 141, rfl⟩
abbrev main_cst_13 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_c_1 : Ref sig .tc := ⟨.hbm, 155, rfl⟩
abbrev main_call5_c_2 : Ref sig .tc := ⟨.hbm, 156, rfl⟩
abbrev main_call5_v5 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_c_3 : Ref sig .tc := ⟨.hbm, 163, rfl⟩
abbrev main_call5_v11 : Ref sig .tc := ⟨.hbm, 164, rfl⟩
abbrev main_call5_v12 : Ref sig .tc := ⟨.hbm, 165, rfl⟩
abbrev main_call5_v13 : Ref sig .tc := ⟨.hbm, 166, rfl⟩
abbrev main_call5_cst : Ref sig .tc := ⟨.hbm, 167, rfl⟩
abbrev main_call5_v14 : Ref sig .tc := ⟨.hbm, 168, rfl⟩
abbrev main_v61 : Ref sig .tc := ⟨.hbm, 169, rfl⟩
abbrev main_call6_cst : Ref sig .tc := ⟨.hbm, 170, rfl⟩
abbrev main_call6_v0 : Ref sig .tc := ⟨.hbm, 171, rfl⟩
abbrev main_call6_cst_0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_v6 : Ref sig .tc := ⟨.hbm, 178, rfl⟩
abbrev main_call6_cst_1 : Ref sig .tc := ⟨.hbm, 179, rfl⟩
abbrev main_call6_v7 : Ref sig .tc := ⟨.hbm, 180, rfl⟩
abbrev main_call6_v8 : Ref sig .tc := ⟨.hbm, 181, rfl⟩
abbrev main_call6_v9 : Ref sig .tc := ⟨.hbm, 182, rfl⟩
abbrev main_call6_v10 : Ref sig .tc := ⟨.hbm, 183, rfl⟩
abbrev main_v62 : Ref sig .tc := ⟨.hbm, 184, rfl⟩
abbrev main_c_14 : Ref sig .tc := ⟨.hbm, 185, rfl⟩
abbrev main_v63 : Ref sig .tc := ⟨.hbm, 186, rfl⟩
abbrev main_v64 : Ref sig .tc := ⟨.hbm, 187, rfl⟩
abbrev main_c_15 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev main_call7_c : Ref sig .tc := ⟨.hbm, 196, rfl⟩
abbrev main_call7_v0 : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_c_1 : Ref sig .tc := ⟨.hbm, 204, rfl⟩
abbrev main_call7_c_2 : Ref sig .tc := ⟨.hbm, 205, rfl⟩
abbrev main_call7_v6 : Ref sig .tc := ⟨.hbm, 206, rfl⟩
abbrev main_call7_v7 : Ref sig .tc := ⟨.hbm, 207, rfl⟩
abbrev main_call7_v8 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_3 : Ref sig .tc := ⟨.hbm, 212, rfl⟩
abbrev main_call7_v12 : Ref sig .tc := ⟨.hbm, 213, rfl⟩
abbrev main_call7_v13 : Ref sig .tc := ⟨.hbm, 214, rfl⟩
abbrev main_call7_cst : Ref sig .tc := ⟨.hbm, 215, rfl⟩
abbrev main_call7_v14 : Ref sig .tc := ⟨.hbm, 216, rfl⟩
abbrev main_v72 : Ref sig .tc := ⟨.hbm, 217, rfl⟩
abbrev main_v73 : Ref sig .tc := ⟨.hbm, 218, rfl⟩
abbrev main_v74 : Ref sig .tc := ⟨.hbm, 219, rfl⟩
abbrev main_cst_16 : Ref sig .tc := ⟨.hbm, 220, rfl⟩
abbrev main_v75 : Ref sig .tc := ⟨.hbm, 221, rfl⟩
abbrev main_cst_17 : Ref sig .tc := ⟨.hbm, 222, rfl⟩
abbrev main_v76 : Ref sig .tc := ⟨.hbm, 223, rfl⟩
abbrev main_v77 : Ref sig .tc := ⟨.hbm, 224, rfl⟩
abbrev main_cst_18 : Ref sig .tc := ⟨.hbm, 225, rfl⟩
abbrev main_v78 : Ref sig .tc := ⟨.hbm, 226, rfl⟩
abbrev main_v79 : Ref sig .tc := ⟨.hbm, 227, rfl⟩
abbrev main_v80 : Ref sig .tc := ⟨.hbm, 228, rfl⟩
abbrev main_cst_19 : Ref sig .tc := ⟨.hbm, 229, rfl⟩
abbrev main_v81 : Ref sig .tc := ⟨.hbm, 230, rfl⟩
abbrev main_v82 : Ref sig .tc := ⟨.hbm, 231, rfl⟩

abbrev nD : Nat := 1
abbrev τ : Topo := Topo.v7x

variable {F : FTy → Type} [FloatOps F]

class Facts₀ : Prop where
  bcast_S_S81 : S_.BroadcastsInDim S81 (![] : Fin 0 → Fin S81.rank)
  slices_S16x2x64_S16x1x63_0_0_1 : S16x2x64.Slices ![0, 0, 1] S16x1x63
  shapeCasts_S16x1x63_S16x63 : S16x1x63.ShapeCasts S16x63
  slices_S16x2x64_S16x1x63_0_1_1 : S16x2x64.Slices ![0, 1, 1] S16x1x63
  bcast_S_S16x63 : S_.BroadcastsInDim S16x63 (![] : Fin 0 → Fin S16x63.rank)
  shapeCasts_S16x63_S16x63x1 : S16x63.ShapeCasts S16x63x1
  bcast_S_S16x63x1 : S_.BroadcastsInDim S16x63x1 (![] : Fin 0 → Fin S16x63x1.rank)
  bcast_S1_S1x1x1_2 : S1.BroadcastsInDim S1x1x1 (![2] : Fin 1 → Fin S1x1x1.rank)
  bcast_S1x1x1_S16x63x1_0_1_2 : S1x1x1.BroadcastsInDim S16x63x1 (![0, 1, 2] : Fin 3 → Fin S16x63x1.rank)
  reducesTo_S16x63x1_S16x63_d2 : S16x63x1.ReducesTo [2] S16x63
  h_S_ : 0 < S_.numel
  slices_S16x64_S16x63_0_1 : S16x64.Slices ![0, 1] S16x63
  shapeCasts_S16x64x256x256_S16x64x65536 : S16x64x256x256.ShapeCasts S16x64x65536
  reducesTo_S16x64x65536_S16x64_d2 : S16x64x65536.ReducesTo [2] S16x64
  slices_S81_S1_0 : S81.Slices ![0] S1
  shapeCasts_S1_S_ : S1.ShapeCasts S_
  bcast_S16x63_S16x63x1_0_1 : S16x63.BroadcastsInDim S16x63x1 (![0, 1] : Fin 2 → Fin S16x63x1.rank)
  shapeCasts_S16x64x1_S16x64 : S16x64x1.ShapeCasts S16x64
  bcast_S16x63_S16x63x81_0_1 : S16x63.BroadcastsInDim S16x63x81 (![0, 1] : Fin 2 → Fin S16x63x81.rank)
  bcast_S_S16x63x81 : S_.BroadcastsInDim S16x63x81 (![] : Fin 0 → Fin S16x63x81.rank)
  reducesTo_S16x63x81_S16x63_d2 : S16x63x81.ReducesTo [2] S16x63
  bcast_S16x63x1_S16x63x81_0_1_2 : S16x63x1.BroadcastsInDim S16x63x81 (![0, 1, 2] : Fin 3 → Fin S16x63x81.rank)
  shapeCasts_S16x63x1_S16x63x1x1 : S16x63x1.ShapeCasts S16x63x1x1
  bcast_S_S16x63x1x1 : S_.BroadcastsInDim S16x63x1x1 (![] : Fin 0 → Fin S16x63x1x1.rank)
  bcast_S1_S1x1x1x1_3 : S1.BroadcastsInDim S1x1x1x1 (![3] : Fin 1 → Fin S1x1x1x1.rank)
  bcast_S1x1x1x1_S16x63x1x1_0_1_2_3 : S1x1x1x1.BroadcastsInDim S16x63x1x1 (![0, 1, 2, 3] : Fin 4 → Fin S16x63x1x1.rank)
  reducesTo_S16x63x1x1_S16x63x1_d3 : S16x63x1x1.ReducesTo [3] S16x63x1
  shapeCasts_S16x63x1_S16x63 : S16x63x1.ShapeCasts S16x63
  reducesTo_S16x63_S_d0_1 : S16x63.ReducesTo [0, 1] S_
  gather_S16x64_S16x63x1_S16x63_n_1_0_0_1_2_11_wf : GatherDims.WF S16x64 S16x63x1 S16x63 [] [1] [0] [1] [0] 2 ![1, 1]
  gather_S81_S16x63x1_S16x63_n_0_n_n_0_2_1_wf : GatherDims.WF S81 S16x63x1 S16x63 [] [0] [] [0] [] 2 ![1]
  gather_S16x64x81_S16x63x1_S16x63x81_2_1_0_0_1_2_1181_wf : GatherDims.WF S16x64x81 S16x63x1 S16x63x81 [2] [1] [0] [1] [0] 2 ![1, 1, 81]
  gather_S16x63x81_S16x63x1x1_S16x63x1_n_2_01_01_2_3_111_wf : GatherDims.WF S16x63x81 S16x63x1x1 S16x63x1 [] [2] [0, 1] [2] [0, 1] 3 ![1, 1, 1]

variable [Facts₀]

def gather_S16x64_S16x63x1_S16x63_n_1_0_0_1_2_11 : GatherDims S16x64 S16x63x1 S16x63 where
  offsetDims := []
  collapsedSliceDims := [1]
  operandBatchingDims := [0]
  startIndicesBatchingDims := [0]
  startIndexMap := [1]
  indexVectorDim := 2
  sliceSizes := ![1, 1]
  wf := gather_S16x64_S16x63x1_S16x63_n_1_0_0_1_2_11_wf
def gather_S81_S16x63x1_S16x63_n_0_n_n_0_2_1 : GatherDims S81 S16x63x1 S16x63 where
  offsetDims := []
  collapsedSliceDims := [0]
  operandBatchingDims := []
  startIndicesBatchingDims := []
  startIndexMap := [0]
  indexVectorDim := 2
  sliceSizes := ![1]
  wf := gather_S81_S16x63x1_S16x63_n_0_n_n_0_2_1_wf
def gather_S16x64x81_S16x63x1_S16x63x81_2_1_0_0_1_2_1181 : GatherDims S16x64x81 S16x63x1 S16x63x81 where
  offsetDims := [2]
  collapsedSliceDims := [1]
  operandBatchingDims := [0]
  startIndicesBatchingDims := [0]
  startIndexMap := [1]
  indexVectorDim := 2
  sliceSizes := ![1, 1, 81]
  wf := gather_S16x64x81_S16x63x1_S16x63x81_2_1_0_0_1_2_1181_wf
def gather_S16x63x81_S16x63x1x1_S16x63x1_n_2_01_01_2_3_111 : GatherDims S16x63x81 S16x63x1x1 S16x63x1 where
  offsetDims := []
  collapsedSliceDims := [2]
  operandBatchingDims := [0, 1]
  startIndicesBatchingDims := [0, 1]
  startIndexMap := [2]
  indexVectorDim := 3
  sliceSizes := ![1, 1, 1]
  wf := gather_S16x63x81_S16x63x1x1_S16x63x1_n_2_01_01_2_3_111_wf

class Facts : Prop extends Facts₀ where

variable [Facts]
-- ==== Proof.WordHost.lean ====
import proofs.«426101_j90726889161276_2_alg».proof.Proof.Gen.Kernel.Launch
import proofs.«426101_j90726889161276_2_alg».proof.Proof.Gen.Kernel.Points
import Idealize.ShloMosaic.Lib.Pipeline.FrameBody
import Idealize.ShloMosaic.Lib.Pipeline.FrameSuffix

/-! # The host program around the spatial-max region

@main is three stretches: 39 host operations (index slicing, the class ids), the region that takes the
per-channel maximum of the probability maps, and 185 host operations (the gathers, the smooth-L1 and
cross-entropy terms, the two weighted means). This module says what the region finds in memory when it is
entered, that the later operations are plain host lines over unscoped buffers, and that neither stretch
writes an argument array or the region's own two arrays. -/

set_option maxRecDepth 16384

noncomputable section

namespace Cert.Kernel.Host

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-! ## Memory at the region's entry -/

/-- Core `c`'s buffers after the first stretch of host operations. -/
abbrev atEntry (c : Dev nD) : Valuation τ sig (Elt F) := StableHlo.after (List.flatten [hostOps0]) (fun b => m (c, b))
/-- The same, read at a TensorCore reference. -/
abbrev entryBuf (c : Dev nD) (b : Ref sig .tc) : Buf (Elt F) ((c : Thread nD τ).loc b) := atEntry m c (Proc.devRef .tc b)

/-! ## Neither stretch allocates -/

theorem prefix_allocates_nothing : (hostOps0 : List (HloOp τ sig (Elt F))).Forall fun op => op.fresh = ∅ := by
  simp only [List.Forall]; and_intros <;> rfl
set_option maxHeartbeats 4000000 in
theorem tail_allocates_nothing : (hostOps1 : List (HloOp τ sig (Elt F))).Forall fun op => op.fresh = ∅ := by
  simp only [List.Forall]; and_intros <;> rfl

/-! ## Buffers no host line writes

Every host operation writes exactly its own result buffer, and no result buffer is one of the seven
arguments, the probability maps' array or the region's output array. -/

/-- The references the host lines must leave alone. -/
abbrev untouched : List (Ref sig .tc) :=
  [main_arg0, main_arg1, main_arg2, main_arg3, main_arg4, main_arg5, main_arg6, main_call0_v14]

theorem prefix_leaves_untouched :
    (hostOps0 : List (HloOp τ sig (Elt F))).Forall fun op => ∀ b ∈ untouched, Proc.devRef (τ := τ) .tc b ∉ op.writes := by
  simp only [hostOps0, untouched, List.Forall, List.forall_mem_cons, List.not_mem_nil, IsEmpty.forall_iff, implies_true, and_true,
    StableHlo.nullary_writes, StableHlo.unary_writes, StableHlo.binary_writes, StableHlo.ternary_writes,
    StableHlo.reshape_writes, Finset.mem_singleton]
  and_intros <;> exact StableHlo.devRef_ne_of_ne (by decide)

set_option maxHeartbeats 8000000 in
theorem tail_leaves_untouched :
    (hostOps1 : List (HloOp τ sig (Elt F))).Forall fun op => ∀ b ∈ untouched, Proc.devRef (τ := τ) .tc b ∉ op.writes := by
  simp only [hostOps1, untouched, List.Forall, List.forall_mem_cons, List.not_mem_nil, IsEmpty.forall_iff, implies_true, and_true,
    StableHlo.nullary_writes, StableHlo.unary_writes, StableHlo.binary_writes, StableHlo.ternary_writes,
    StableHlo.reshape_writes, Finset.mem_singleton]
  and_intros <;> exact StableHlo.devRef_ne_of_ne (by decide)

/-- An untouched buffer enters the region as launched. -/
theorem entryBuf_untouched (c : Dev nD) (b : Ref sig .tc) (hb : b ∈ untouched) :
    entryBuf m c b = m ((c : Thread nD τ).loc b) :=
  StableHlo.after_of_forall_not_mem (b := Proc.devRef .tc b) _ _ (by
    simp only [List.flatten_cons, List.flatten_nil, List.append_nil]
    exact fun op hop => (List.forall_iff_forall_mem.mp prefix_leaves_untouched) op hop b hb)

/-! ## @main as prefix, region, tail -/

set_option maxRecDepth 100000 in
theorem main_around (𝒱₀ : Variants) :
    Pipeline.HMainK (Ix := Unit) (Name := ℕ) (U := UR sig nD τ) (Lvl := ℕ) cfgs 0 defs₀ 𝒱₀ m (main (F := F)) (entryBuf m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-! ## The tail's side conditions -/

theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp tail_allocates_nothing) op hop

theorem tail_keeps_arrays : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  have h := (List.forall_iff_forall_mem.mp tail_leaves_untouched) op hop
  fin_cases w
  · exact h main_arg5 (by simp [untouched])
  · exact h main_call0_v14 (by simp [untouched])

/-! ## The arguments after the tail -/

/-- An argument that is no array of the region ends as launched, whatever the region left in its arrays. -/
theorem exit_untouched (dats : (p : Fin 1) → (c : Dev nD) → Dat τ (Elt F) Unit ℕ (UR sig nD τ) ℕ (cfgs p) c) (c : Dev nD)
    (b : Ref sig .tc) (hb : b ∈ untouched) (hne : ∀ w, Pipeline.arrRef spec0 w ≠ b) :
    Pipeline.afterTail₀ cfgs dats 0 (atEntry m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact fun op hop => (List.forall_iff_forall_mem.mp tail_leaves_untouched) op hop b hb),
    Pipeline.withArrays_of_ne _ c (atEntry m c) _ b hne]
  exact entryBuf_untouched m c b hb

end Cert.Kernel.Host

end
-- ==== Proof.WordPoint.lean ====
import proofs.«426101_j90726889161276_2_alg».proof.Proof.Gen.Kernel.Skeleton
import proofs.«426101_j90726889161276_2_alg».proof.Proof.Gen.Kernel.Launch
import proofs.«426101_j90726889161276_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

/-! # One grid point of the spatial-max kernel

At a grid point the kernel holds a block of four channels of every batch row, 256 × 256 each. It sets a
16 × 4 scratch to −∞, then for each of the eight 32-row chunks takes the maximum over the 256 lanes, then over
the chunk's 32 rows, and folds that into the scratch by `max`; at the end it copies the scratch to the output
block. `runMax x k` is the scratch after `k` chunks and `outBlock x` what the output block ends with. -/

set_option maxRecDepth 16384

noncomputable section

namespace Cert.Kernel.Point

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of chunk `k` inside the block: all 16 batch rows, all 4 channels, rows `32k … 32k+31`, all 256 lanes. -/
abbrev chunk (k : Fin k0_t1_loop.trips) : Rect S16x4x256x256 :=
  Rect.unit (s := S16x4x256x256) (k0_off1 k) S16x4x32x256.size (k0_off1_inb k)

/-- The whole scratch, and the whole output block, as the rectangles the body names them by. -/
abbrev scratchAll : Rect S16x4 := Rect.unit (s := S16x4) ![0, 0] S16x4.size inb_S16x4_S16x4_0_0
abbrev outAll : Rect S1x16x4 := Rect.unit (s := S1x16x4) ![0, 0, 0] S1x16x4.size inb_S1x16x4_S1x16x4_0_0_0

/-- The scratch after the first `k` chunks of the block `x`: −∞ everywhere, then one `max` per chunk. -/
def runMax (x : Vec F S16x4x256x256 .f32) : ℕ → Vec F S16x4 .f32
  | 0 => k0_pay1
  | k + 1 => if h : k < k0_t1_loop.trips then k0_pay2 (View.ld x (chunk ⟨k, h⟩)) (runMax x k) else runMax x k

theorem runMax_succ (x : Vec F S16x4x256x256 .f32) (k : Fin k0_t1_loop.trips) :
    runMax x (k.val + 1) = k0_pay2 (View.ld x (chunk k)) (runMax x k.val) := by
  rw [runMax, dif_pos k.isLt]

/-- What the output block holds after the body. -/
def outBlock (x : Vec F S16x4x256x256 .f32) : Vec F S1x16x4 .f32 := k0_pay3 (runMax x k0_t1_loop.trips)

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- One store over a whole buffer, read back, is the value stored, whatever was there before. -/
theorem read_after_whole_store [∀ e, Nonempty (Elt F e)] {S : Shape} {e : EltTy} {sg : RefSig} {κ : Kind} {sp : Space}
    (v : View sg κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h inb]

/-- Before chunk `k`: the input block is held as it is, and the scratch reads as `runMax` of it after `k` chunks. -/
def chunkInv (c : Dev nD) (arg1 : Memref sig .tc .vmem S16x4x256x256 .f32) (arg3 : Memref sig .tc .vmem S16x4 .f32)
    (f1 : BufTy.Contents (Elt F) arg1.view.ty) (k : ℕ) (_ : PUnit) : sProp 𝕄 :=
  iprop((arg1.view.loc (c : Thread nD τ) ↦[arg1.view.set]{fullShare} f1)
    ∗ ∃ f, (arg3.view.loc (c : Thread nD τ) ↦[arg3.view.set]{fullShare} f)
        ∗ ⌜arg3.view.read (Elt F) f = runMax (arg1.view.read (Elt F) f1) k⌝)

set_option maxHeartbeats 4000000 in
/-- The body, holding the input block at `x`, the output block and the scratch at anything, ends holding the input
    block as it was, the output block at `outBlock x` and the scratch at something. -/
theorem body_triple (c : Dev nD) (E : Set ℕ) (i : grid0.Coords)
    (arg1 : Memref sig .tc .vmem S16x4x256x256 .f32) (harg1 : arg1.IsWhole)
    (arg2 : Memref sig .tc .vmem S1x16x4 .f32) (harg2 : arg2.IsWhole)
    (arg3 : Memref sig .tc .vmem S16x4 .f32) (harg3 : arg3.IsWhole)
    (x : Vec F S16x4x256x256 .f32) (K : PUnit → sProp 𝕄) :
    iprop(owns (c : Thread nD τ) arg1 fullShare x ∗ (∃ d, owns (c : Thread nD τ) arg2 fullShare d)
        ∗ (∃ s, owns (c : Thread nD τ) arg3 fullShare s)
        ∗ (iprop(owns (c : Thread nD τ) arg1 fullShare x ∗ owns (c : Thread nD τ) arg2 fullShare (outBlock x)
            ∗ (∃ s, owns (c : Thread nD τ) arg3 fullShare s)) -∗ K ⟨⟩))
      ⊢ wp frame (wpE (defs₀ (F := F)) Variants.none c none) E (cc0__max_prob_kernel i arg1 harg1 arg2 harg2 arg3 harg3) K := by
  simp only [cc0__max_prob_kernel_eq_skeleton]; unfold cc0__max_prob_kernel_skel
  unfold owns
  iintro ⟨⟨%f1, %hf1, H1⟩, ⟨%d2, %f2, -, H2⟩, ⟨%s3, %f3, -, H3⟩, Hk⟩
  subst hf1
  sl_exec
  sl_for (chunkInv c arg1 arg3 f1) $$ [H1 H3]
  case region =>
    intro k acc
    unfold chunkInv
    iintro ⟨H1, %f, H3, %hf⟩
    sl_exec
    sl_step
    isplitl [H1]; · iexact H1
    iexists _; isplitl [H3]; · iexact H3
    ipureintro
    rw [read_after_whole_store _ _ zeros2 _ _, runMax_succ, ← hf, View.readAt_eq_ld, View.readAt_eq_ld,
      View.ld_unit_zero zeros2]
  · unfold chunkInv
    isplitl [H1]; · iexact H1
    iexists _; isplitl [H3]; · iexact H3
    ipureintro
    sl_unfold_run_names
    exact read_after_whole_store _ _ zeros2 _ _
  iintro %acc HI
  unfold chunkInv; icases HI with ⟨H1, %f, H3, %hf⟩
  sl_exec
  sl_step
  iapply Hk
  isplitl [H1]
  · iexists f1; isplitr; · ipureintro; rfl
    iexact H1
  isplitl [H2]
  · iexists _; isplitr
    swap; · iexact H2
    ipureintro
    rw [read_after_whole_store _ _ zeros3 _ _, View.readAt_eq_ld, hf]
    unfold outBlock
    rw [View.ld_unit_zero zeros2]
  iexists _, f; isplitr; · ipureintro; rfl
  iexact H3

end Cert.Kernel.Point

end
-- ==== Proof.WordRun.lean ====
import proofs.«426101_j90726889161276_2_alg».proof.Proof.WordHost
import proofs.«426101_j90726889161276_2_alg».proof.Proof.WordPoint
import Idealize.ShloMosaic.Lib.Pipeline.FrameSuffix

/-! # The whole run: sixteen grid points between the two host stretches

Grid point `t` works on channels `4t … 4t+3` of every batch row. The proof data says what each staging buffer
holds after the body there: the input's buffer still its block of the probability maps, the output's buffer
`outBlock` of that block. The scratch is reset at every point, so between points the region only needs it at
some contents; that is the library's plain region invariant. With the body's triple this gives the run of
@main, and from the run the statement that every argument array ends as it began. -/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (Host.entryBuf m c (Pipeline.arrRef spec0 w))

/-- The proof data on core `c`. -/
def data (_ : Fin 1) (c : Dev nD) : Dat τ (Elt F) Unit ℕ (UR sig nD τ) ℕ cfg0 c where
  A w := Host.entryBuf m c (Pipeline.arrRef spec0 w)
  after w t := match w with
    | ⟨0, _⟩ => blockAt m c 0 t
    | ⟨1, _⟩ => Point.outBlock (blockAt m c 0 t)
  Φ _ := Pipeline.ΦA spec0 c
  q _ := fullShare
  owed _ := 0

theorem data_A (c : Dev nD) (w : Fin cfg0.W) : (data m 0 c).A w = Host.entryBuf m c (Pipeline.arrRef spec0 w) := by
  dsimp only [data]
theorem after_in (c : Dev nD) (t : Fin cfg0.N) : (data m 0 c).after 0 t = blockAt m c 0 t := by dsimp only [data]
theorem after_out (c : Dev nD) (t : Fin cfg0.N) : (data m 0 c).after 1 t = Point.outBlock (blockAt m c 0 t) := by
  dsimp only [data]

/-- The body leaves the input block in place, the window is never idle and its blocks are never cut, so when the
    body runs at `t` the input's staging buffer holds the block of `t`. -/
theorem before_in (c : Dev nD) (t : Fin cfg0.N) (d) : (data m 0 c).before 0 t d = blockAt m c 0 t :=
  ((data m 0 c).before_in_eq_fetched 0 rfl (fun _ => rfl) (fun _ _ _ => rfl)
      (fun t => by rw [after_in]; unfold Dat.blockOf blockAt; rw [data_A]; try rfl) t d).trans
    (by unfold Dat.fetched Dat.blockOf blockAt; rw [data_A]; try rfl)

/-- The region invariant is: the scratch at some contents, and the generator register at some state. -/
theorem invariant_eq (c : Dev nD) :
    (Pipeline.ΦA spec0 c : sProp 𝕄)
      = iprop((∃ s, owns (c : Thread nD τ) (Memref.whole cc0_scratch0) fullShare s) ∗ (∃ r, prngReg c r)) := by
  unfold Pipeline.ΦA; rw [scopedRest0_eq]; simp only [owns_whole]

/-- What the body is handed at point `t`, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it hands back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

theorem at_point (c : Dev nD) (t : Fin cfg0.N) :
    handed m c t ⊢ wp frame (wpE (defs₀ (F := F)) Variants.none c none) Set.univ (bodyAt0 t) (fun _ => returned m c t) := by
  unfold handed returned bodyAt0
  simp only [before_in]
  rw [show (data m 0 c).Φ t.succ = (data m 0 c).Φ t.castSucc from rfl,
    show (data m 0 c).owesAt () t.succ = (data m 0 c).owesAt () t.castSucc from rfl,
    show (data m 0 c).Φ t.castSucc = Pipeline.ΦA spec0 c from rfl, invariant_eq, after_in, after_out]
  iintro ⟨⟨HS, Hg⟩, Ho, ⟨%d0, H0⟩, ⟨%d1, H1⟩⟩
  iapply (Point.body_triple c Set.univ (grid0.coords t) _ _ _ _ _ _ (blockAt m c 0 t) _)
  isplitl [H0]; · iexact H0
  isplitl [H1]; · iexists _; iexact H1
  isplitl [HS]; · iexact HS
  iintro ⟨H0, H1, HS⟩
  isplitl [HS Hg]
  · isplitl [HS]; · iexact HS
    iexact Hg
  isplitl [Ho]; · iexact Ho
  isplitl [H0]; · iexact H0
  iexact H1

theorem obligation (c : Dev nD) : BodyObligation (data (F := F) m 0 c) (defs₀ (F := F)) Variants.none () Set.univ := fun t => by
  rw [bigSep_W0, bigSep_W0]
  exact at_point m c t

set_option maxRecDepth 200000 in
set_option backward.isDefEq.respectTransparency.types false in
/-- Every weakly fair execution of @main terminates; at the end each array of the region holds what the library
    computes from the proof data, and every other unscoped buffer what the tail's operations leave. -/
theorem run_main : θ_run defs (onTc (τ := τ) (main (F := F))) (s₀ m ρ)
    (Pipeline.FramePost cfgs (data m) 0 (Pipeline.afterTail₀ cfgs (data m) 0 (Host.atEntry m) [hostOps1])) :=
  Pipeline.θ_run_frame_around cfgs (data m) (0 : Fin 1) launch0 defs₀ Variants.none m ρ main
    (hbody := fun c => (obligation m c).loose) (hshare := fun c => (data m 0 c).share_full fun _ => rfl)
    (howed := fun _ _ => rfl) (V₀ := Host.atEntry m) (opss := [hostOps1]) (hsub := Host.tail_within)
    (hfresh := Host.tail_fresh) (hkeep := Host.tail_keeps_arrays)
    (hmain := Host.main_around m Variants.none) (hA := data_A m) (hΦ := fun _ _ => rfl)

/-- The run's final state has the seven argument arrays as they began: the six that bypass the region are
    untouched by both host stretches, and the probability maps are an input array of the region, never written back. -/
theorem kept_of_post (r : PUnit × MemSt nD τ sig (Elt F))
    (h : Pipeline.FramePost cfgs (data m) 0 (Pipeline.afterTail₀ cfgs (data m) 0 (Host.atEntry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have bypass : ∀ b : Ref sig .tc, b ∈ Host.untouched → b.isScoped = false → (∀ w, (spec0 w).arr.view.ref ≠ b) →
      (∀ w, Pipeline.arrRef spec0 w ≠ b) → r.2.mem ((c.tc : Thread nD τ).loc b) = m ((c.tc : Thread nD τ).loc b) :=
    fun b hb hs ha hne =>
      ((h c).2 b (Pipeline.mem_restRefs_of b hs ha)).trans (Host.exit_untouched m (data m) c b hb hne)
  ⟨bypass main_arg0 (by simp [Host.untouched]) (by decide) (by decide) (by decide),
   bypass main_arg1 (by simp [Host.untouched]) (by decide) (by decide) (by decide),
   bypass main_arg2 (by simp [Host.untouched]) (by decide) (by decide) (by decide),
   bypass main_arg3 (by simp [Host.untouched]) (by decide) (by decide) (by decide),
   bypass main_arg4 (by simp [Host.untouched]) (by decide) (by decide) (by decide),
   (((h c).1 0).trans (((data m 0 c).arrAt_in 0 rfl _).trans (data_A m c 0))).trans
     (Host.entryBuf_untouched m c main_arg5 (by simp [Host.untouched])),
   bypass main_arg6 (by simp [Host.untouched]) (by decide) (by decide) (by decide)⟩

/-- The seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept_of_post m r h c) (run_main m ρ)

end Cert.Kernel.Region

end
-- ==== Proof.IdealHost.lean ====
import proofs.«426101_j90726889161276_2_alg».proof.Proof.Gen.KernelIdeal.Launch
import proofs.«426101_j90726889161276_2_alg».proof.Proof.Gen.KernelIdeal.Points
import Idealize.ShloMosaic.Lib.Pipeline.FrameBody
import Idealize.ShloMosaic.Lib.Pipeline.FrameSuffix

/-! # The host program around the spatial-max region

@main is three stretches: 39 host operations (index slicing, the class ids), the region that takes the
per-channel maximum of the probability maps, and 185 host operations (the gathers, the smooth-L1 and
cross-entropy terms, the two weighted means). This module says what the region finds in memory when it is
entered, that the later operations are plain host lines over unscoped buffers, and that neither stretch
writes an argument array or the region's own two arrays. -/

set_option maxRecDepth 16384

noncomputable section

namespace Cert.KernelIdeal.Host

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-! ## Memory at the region's entry -/

/-- Core `c`'s buffers after the first stretch of host operations. -/
abbrev atEntry (c : Dev nD) : Valuation τ sig (Elt F) := StableHlo.after (List.flatten [hostOps0]) (fun b => m (c, b))
/-- The same, read at a TensorCore reference. -/
abbrev entryBuf (c : Dev nD) (b : Ref sig .tc) : Buf (Elt F) ((c : Thread nD τ).loc b) := atEntry m c (Proc.devRef .tc b)

/-! ## Neither stretch allocates -/

theorem prefix_allocates_nothing : (hostOps0 : List (HloOp τ sig (Elt F))).Forall fun op => op.fresh = ∅ := by
  simp only [List.Forall]; and_intros <;> rfl
set_option maxHeartbeats 4000000 in
theorem tail_allocates_nothing : (hostOps1 : List (HloOp τ sig (Elt F))).Forall fun op => op.fresh = ∅ := by
  simp only [List.Forall]; and_intros <;> rfl

/-! ## Buffers no host line writes

Every host operation writes exactly its own result buffer, and no result buffer is one of the seven
arguments, the probability maps' array or the region's output array. -/

/-- The references the host lines must leave alone. -/
abbrev untouched : List (Ref sig .tc) :=
  [main_arg0, main_arg1, main_arg2, main_arg3, main_arg4, main_arg5, main_arg6, main_call0_v14]

theorem prefix_leaves_untouched :
    (hostOps0 : List (HloOp τ sig (Elt F))).Forall fun op => ∀ b ∈ untouched, Proc.devRef (τ := τ) .tc b ∉ op.writes := by
  simp only [hostOps0, untouched, List.Forall, List.forall_mem_cons, List.not_mem_nil, IsEmpty.forall_iff, implies_true, and_true,
    StableHlo.nullary_writes, StableHlo.unary_writes, StableHlo.binary_writes, StableHlo.ternary_writes,
    StableHlo.reshape_writes, Finset.mem_singleton]
  and_intros <;> exact StableHlo.devRef_ne_of_ne (by decide)

set_option maxHeartbeats 8000000 in
theorem tail_leaves_untouched :
    (hostOps1 : List (HloOp τ sig (Elt F))).Forall fun op => ∀ b ∈ untouched, Proc.devRef (τ := τ) .tc b ∉ op.writes := by
  simp only [hostOps1, untouched, List.Forall, List.forall_mem_cons, List.not_mem_nil, IsEmpty.forall_iff, implies_true, and_true,
    StableHlo.nullary_writes, StableHlo.unary_writes, StableHlo.binary_writes, StableHlo.ternary_writes,
    StableHlo.reshape_writes, Finset.mem_singleton]
  and_intros <;> exact StableHlo.devRef_ne_of_ne (by decide)

/-- An untouched buffer enters the region as launched. -/
theorem entryBuf_untouched (c : Dev nD) (b : Ref sig .tc) (hb : b ∈ untouched) :
    entryBuf m c b = m ((c : Thread nD τ).loc b) :=
  StableHlo.after_of_forall_not_mem (b := Proc.devRef .tc b) _ _ (by
    simp only [List.flatten_cons, List.flatten_nil, List.append_nil]
    exact fun op hop => (List.forall_iff_forall_mem.mp prefix_leaves_untouched) op hop b hb)

/-! ## @main as prefix, region, tail -/

set_option maxRecDepth 100000 in
theorem main_around (𝒱₀ : Variants) :
    Pipeline.HMainK (Ix := Unit) (Name := ℕ) (U := UR sig nD τ) (Lvl := ℕ) cfgs 0 defs₀ 𝒱₀ m (main (F := F)) (entryBuf m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_allocates_nothing) main_chain

/-! ## The tail's side conditions -/

theorem tail_within : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)

theorem tail_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp tail_allocates_nothing) op hop

theorem tail_keeps_arrays : ∀ ops ∈ ([hostOps1] : List (List (HloOp τ sig (Elt F)))), ∀ op ∈ ops,
    ∀ w, Proc.devRef .tc (Pipeline.arrRef spec0 w) ∉ op.writes := by
  intro ops hops op hop w
  obtain rfl : ops = hostOps1 := by simpa using hops
  have h := (List.forall_iff_forall_mem.mp tail_leaves_untouched) op hop
  fin_cases w
  · exact h main_arg5 (by simp [untouched])
  · exact h main_call0_v14 (by simp [untouched])

/-! ## The arguments after the tail -/

/-- An argument that is no array of the region ends as launched, whatever the region left in its arrays. -/
theorem exit_untouched (dats : (p : Fin 1) → (c : Dev nD) → Dat τ (Elt F) Unit ℕ (UR sig nD τ) ℕ (cfgs p) c) (c : Dev nD)
    (b : Ref sig .tc) (hb : b ∈ untouched) (hne : ∀ w, Pipeline.arrRef spec0 w ≠ b) :
    Pipeline.afterTail₀ cfgs dats 0 (atEntry m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact fun op hop => (List.forall_iff_forall_mem.mp tail_leaves_untouched) op hop b hb),
    Pipeline.withArrays_of_ne _ c (atEntry m c) _ b hne]
  exact entryBuf_untouched m c b hb

end Cert.KernelIdeal.Host

end
-- ==== Proof.IdealPoint.lean ====
import proofs.«426101_j90726889161276_2_alg».proof.Proof.Gen.KernelIdeal.Skeleton
import proofs.«426101_j90726889161276_2_alg».proof.Proof.Gen.KernelIdeal.Launch
import proofs.«426101_j90726889161276_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

/-! # One grid point of the spatial-max kernel

At a grid point the kernel holds a block of four channels of every batch row, 256 × 256 each. It sets a
16 × 4 scratch to −∞, then for each of the eight 32-row chunks takes the maximum over the 256 lanes, then over
the chunk's 32 rows, and folds that into the scratch by `max`; at the end it copies the scratch to the output
block. `runMax x k` is the scratch after `k` chunks and `outBlock x` what the output block ends with. -/

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows of chunk `k` inside the block: all 16 batch rows, all 4 channels, rows `32k … 32k+31`, all 256 lanes. -/
abbrev chunk (k : Fin k0_t1_loop.trips) : Rect S16x4x256x256 :=
  Rect.unit (s := S16x4x256x256) (k0_off1 k) S16x4x32x256.size (k0_off1_inb k)

/-- The whole scratch, and the whole output block, as the rectangles the body names them by. -/
abbrev scratchAll : Rect S16x4 := Rect.unit (s := S16x4) ![0, 0] S16x4.size inb_S16x4_S16x4_0_0
abbrev outAll : Rect S1x16x4 := Rect.unit (s := S1x16x4) ![0, 0, 0] S1x16x4.size inb_S1x16x4_S1x16x4_0_0_0

/-- The scratch after the first `k` chunks of the block `x`: −∞ everywhere, then one `max` per chunk. -/
def runMax (x : Vec F S16x4x256x256 .f32) : ℕ → Vec F S16x4 .f32
  | 0 => k0_pay1
  | k + 1 => if h : k < k0_t1_loop.trips then k0_pay2 (View.ld x (chunk ⟨k, h⟩)) (runMax x k) else runMax x k

theorem runMax_succ (x : Vec F S16x4x256x256 .f32) (k : Fin k0_t1_loop.trips) :
    runMax x (k.val + 1) = k0_pay2 (View.ld x (chunk k)) (runMax x k.val) := by
  rw [runMax, dif_pos k.isLt]

/-- What the output block holds after the body. -/
def outBlock (x : Vec F S16x4x256x256 .f32) : Vec F S1x16x4 .f32 := k0_pay3 (runMax x k0_t1_loop.trips)

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- One store over a whole buffer, read back, is the value stored, whatever was there before. -/
theorem read_after_whole_store [∀ e, Nonempty (Elt F e)] {S : Shape} {e : EltTy} {sg : RefSig} {κ : Kind} {sp : Space}
    (v : View sg κ sp S e) (f : v.ty.Contents (Elt F)) {off : Fin S.rank → ℕ} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h inb]

/-- Before chunk `k`: the input block is held as it is, and the scratch reads as `runMax` of it after `k` chunks. -/
def chunkInv (c : Dev nD) (arg1 : Memref sig .tc .vmem S16x4x256x256 .f32) (arg3 : Memref sig .tc .vmem S16x4 .f32)
    (f1 : BufTy.Contents (Elt F) arg1.view.ty) (k : ℕ) (_ : PUnit) : sProp 𝕄 :=
  iprop((arg1.view.loc (c : Thread nD τ) ↦[arg1.view.set]{fullShare} f1)
    ∗ ∃ f, (arg3.view.loc (c : Thread nD τ) ↦[arg3.view.set]{fullShare} f)
        ∗ ⌜arg3.view.read (Elt F) f = runMax (arg1.view.read (Elt F) f1) k⌝)

set_option maxHeartbeats 4000000 in
/-- The body, holding the input block at `x`, the output block and the scratch at anything, ends holding the input
    block as it was, the output block at `outBlock x` and the scratch at something. -/
theorem body_triple (c : Dev nD) (E : Set ℕ) (i : grid0.Coords)
    (arg1 : Memref sig .tc .vmem S16x4x256x256 .f32) (harg1 : arg1.IsWhole)
    (arg2 : Memref sig .tc .vmem S1x16x4 .f32) (harg2 : arg2.IsWhole)
    (arg3 : Memref sig .tc .vmem S16x4 .f32) (harg3 : arg3.IsWhole)
    (x : Vec F S16x4x256x256 .f32) (K : PUnit → sProp 𝕄) :
    iprop(owns (c : Thread nD τ) arg1 fullShare x ∗ (∃ d, owns (c : Thread nD τ) arg2 fullShare d)
        ∗ (∃ s, owns (c : Thread nD τ) arg3 fullShare s)
        ∗ (iprop(owns (c : Thread nD τ) arg1 fullShare x ∗ owns (c : Thread nD τ) arg2 fullShare (outBlock x)
            ∗ (∃ s, owns (c : Thread nD τ) arg3 fullShare s)) -∗ K ⟨⟩))
      ⊢ wp frame (wpE (defs₀ (F := F)) Variants.none c none) E (cc0__max_prob_kernel i arg1 harg1 arg2 harg2 arg3 harg3) K := by
  simp only [cc0__max_prob_kernel_eq_skeleton]; unfold cc0__max_prob_kernel_skel
  unfold owns
  iintro ⟨⟨%f1, %hf1, H1⟩, ⟨%d2, %f2, -, H2⟩, ⟨%s3, %f3, -, H3⟩, Hk⟩
  subst hf1
  sl_exec
  sl_for (chunkInv c arg1 arg3 f1) $$ [H1 H3]
  case region =>
    intro k acc
    unfold chunkInv
    iintro ⟨H1, %f, H3, %hf⟩
    sl_exec
    sl_step
    isplitl [H1]; · iexact H1
    iexists _; isplitl [H3]; · iexact H3
    ipureintro
    rw [read_after_whole_store _ _ zeros2 _ _, runMax_succ, ← hf, View.readAt_eq_ld, View.readAt_eq_ld,
      View.ld_unit_zero zeros2]
  · unfold chunkInv
    isplitl [H1]; · iexact H1
    iexists _; isplitl [H3]; · iexact H3
    ipureintro
    sl_unfold_run_names
    exact read_after_whole_store _ _ zeros2 _ _
  iintro %acc HI
  unfold chunkInv; icases HI with ⟨H1, %f, H3, %hf⟩
  sl_exec
  sl_step
  iapply Hk
  isplitl [H1]
  · iexists f1; isplitr; · ipureintro; rfl
    iexact H1
  isplitl [H2]
  · iexists _; isplitr
    swap; · iexact H2
    ipureintro
    rw [read_after_whole_store _ _ zeros3 _ _, View.readAt_eq_ld, hf]
    unfold outBlock
    rw [View.ld_unit_zero zeros2]
  iexists _, f; isplitr; · ipureintro; rfl
  iexact H3

end Cert.KernelIdeal.Point

end
-- ==== Proof.IdealRun.lean ====
import proofs.«426101_j90726889161276_2_alg».proof.Proof.IdealHost
import proofs.«426101_j90726889161276_2_alg».proof.Proof.IdealPoint
import Idealize.ShloMosaic.Lib.Pipeline.FrameSuffix

/-! # The whole run: sixteen grid points between the two host stretches

Grid point `t` works on channels `4t … 4t+3` of every batch row. The proof data says what each staging buffer
holds after the body there: the input's buffer still its block of the probability maps, the output's buffer
`outBlock` of that block. The scratch is reset at every point, so between points the region only needs it at
some contents; that is the library's plain region invariant. With the body's triple this gives the run of
@main, and from the run the statement that every argument array ends as it began. -/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (Host.entryBuf m c (Pipeline.arrRef spec0 w))

/-- The proof data on core `c`. -/
def data (_ : Fin 1) (c : Dev nD) : Dat τ (Elt F) Unit ℕ (UR sig nD τ) ℕ cfg0 c where
  A w := Host.entryBuf m c (Pipeline.arrRef spec0 w)
  after w t := match w with
    | ⟨0, _⟩ => blockAt m c 0 t
    | ⟨1, _⟩ => Point.outBlock (blockAt m c 0 t)
  Φ _ := Pipeline.ΦA spec0 c
  q _ := fullShare
  owed _ := 0

theorem data_A (c : Dev nD) (w : Fin cfg0.W) : (data m 0 c).A w = Host.entryBuf m c (Pipeline.arrRef spec0 w) := by
  dsimp only [data]
theorem after_in (c : Dev nD) (t : Fin cfg0.N) : (data m 0 c).after 0 t = blockAt m c 0 t := by dsimp only [data]
theorem after_out (c : Dev nD) (t : Fin cfg0.N) : (data m 0 c).after 1 t = Point.outBlock (blockAt m c 0 t) := by
  dsimp only [data]

/-- The body leaves the input block in place, the window is never idle and its blocks are never cut, so when the
    body runs at `t` the input's staging buffer holds the block of `t`. -/
theorem before_in (c : Dev nD) (t : Fin cfg0.N) (d) : (data m 0 c).before 0 t d = blockAt m c 0 t :=
  ((data m 0 c).before_in_eq_fetched 0 rfl (fun _ => rfl) (fun _ _ _ => rfl)
      (fun t => by rw [after_in]; unfold Dat.blockOf blockAt; rw [data_A]; try rfl) t d).trans
    (by unfold Dat.fetched Dat.blockOf blockAt; rw [data_A]; try rfl)

/-- The region invariant is: the scratch at some contents, and the generator register at some state. -/
theorem invariant_eq (c : Dev nD) :
    (Pipeline.ΦA spec0 c : sProp 𝕄)
      = iprop((∃ s, owns (c : Thread nD τ) (Memref.whole cc0_scratch0) fullShare s) ∗ (∃ r, prngReg c r)) := by
  unfold Pipeline.ΦA; rw [scopedRest0_eq]; simp only [owns_whole]

/-- What the body is handed at point `t`, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it hands back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

theorem at_point (c : Dev nD) (t : Fin cfg0.N) :
    handed m c t ⊢ wp frame (wpE (defs₀ (F := F)) Variants.none c none) Set.univ (bodyAt0 t) (fun _ => returned m c t) := by
  unfold handed returned bodyAt0
  simp only [before_in]
  rw [show (data m 0 c).Φ t.succ = (data m 0 c).Φ t.castSucc from rfl,
    show (data m 0 c).owesAt () t.succ = (data m 0 c).owesAt () t.castSucc from rfl,
    show (data m 0 c).Φ t.castSucc = Pipeline.ΦA spec0 c from rfl, invariant_eq, after_in, after_out]
  iintro ⟨⟨HS, Hg⟩, Ho, ⟨%d0, H0⟩, ⟨%d1, H1⟩⟩
  iapply (Point.body_triple c Set.univ (grid0.coords t) _ _ _ _ _ _ (blockAt m c 0 t) _)
  isplitl [H0]; · iexact H0
  isplitl [H1]; · iexists _; iexact H1
  isplitl [HS]; · iexact HS
  iintro ⟨H0, H1, HS⟩
  isplitl [HS Hg]
  · isplitl [HS]; · iexact HS
    iexact Hg
  isplitl [Ho]; · iexact Ho
  isplitl [H0]; · iexact H0
  iexact H1

theorem obligation (c : Dev nD) : BodyObligation (data (F := F) m 0 c) (defs₀ (F := F)) Variants.none () Set.univ := fun t => by
  rw [bigSep_W0, bigSep_W0]
  exact at_point m c t

set_option maxRecDepth 200000 in
set_option backward.isDefEq.respectTransparency.types false in
/-- Every weakly fair execution of @main terminates; at the end each array of the region holds what the library
    computes from the proof data, and every other unscoped buffer what the tail's operations leave. -/
theorem run_main : θ_run defs (onTc (τ := τ) (main (F := F))) (s₀ m ρ)
    (Pipeline.FramePost cfgs (data m) 0 (Pipeline.afterTail₀ cfgs (data m) 0 (Host.atEntry m) [hostOps1])) :=
  Pipeline.θ_run_frame_around cfgs (data m) (0 : Fin 1) launch0 defs₀ Variants.none m ρ main
    (hbody := fun c => (obligation m c).loose) (hshare := fun c => (data m 0 c).share_full fun _ => rfl)
    (howed := fun _ _ => rfl) (V₀ := Host.atEntry m) (opss := [hostOps1]) (hsub := Host.tail_within)
    (hfresh := Host.tail_fresh) (hkeep := Host.tail_keeps_arrays)
    (hmain := Host.main_around m Variants.none) (hA := data_A m) (hΦ := fun _ _ => rfl)

/-- The run's final state has the seven argument arrays as they began: the six that bypass the region are
    untouched by both host stretches, and the probability maps are an input array of the region, never written back. -/
theorem kept_of_post (r : PUnit × MemSt nD τ sig (Elt F))
    (h : Pipeline.FramePost cfgs (data m) 0 (Pipeline.afterTail₀ cfgs (data m) 0 (Host.atEntry m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  have bypass : ∀ b : Ref sig .tc, b ∈ Host.untouched → b.isScoped = false → (∀ w, (spec0 w).arr.view.ref ≠ b) →
      (∀ w, Pipeline.arrRef spec0 w ≠ b) → r.2.mem ((c.tc : Thread nD τ).loc b) = m ((c.tc : Thread nD τ).loc b) :=
    fun b hb hs ha hne =>
      ((h c).2 b (Pipeline.mem_restRefs_of b hs ha)).trans (Host.exit_untouched m (data m) c b hb hne)
  ⟨bypass main_arg0 (by simp [Host.untouched]) (by decide) (by decide) (by decide),
   bypass main_arg1 (by simp [Host.untouched]) (by decide) (by decide) (by decide),
   bypass main_arg2 (by simp [Host.untouched]) (by decide) (by decide) (by decide),
   bypass main_arg3 (by simp [Host.untouched]) (by decide) (by decide) (by decide),
   bypass main_arg4 (by simp [Host.untouched]) (by decide) (by decide) (by decide),
   (((h c).1 0).trans (((data m 0 c).arrAt_in 0 rfl _).trans (data_A m c 0))).trans
     (Host.entryBuf_untouched m c main_arg5 (by simp [Host.untouched])),
   bypass main_arg6 (by simp [Host.untouched]) (by decide) (by decide) (by decide)⟩

/-- The seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept_of_post m r h c) (run_main m ρ)

end Cert.KernelIdeal.Region

end
-- ==== Proof.IdealLanes.lean ====
import proofs.«426101_j90726889161276_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-! # The three values the body stores, read at an index

The first store puts −∞ everywhere. The store inside the loop puts, at `(b, q)`, the larger of what the scratch
held there and the largest entry of the chunk's 32 × 256 slab for `(b, q)`. The last store copies the scratch to
the output block. Statements about "the largest entry" are by the universal property of a maximum. -/

noncomputable section

namespace Cert.KernelIdeal.Lanes

open Cert.KernelIdeal Cert.KernelIdeal.Gen
open Idealize.ShloMosaic Idealize.ShloMosaic.ValueIdx

theorem negInf_word : FloatOps.ofBits (F := Ideal) .f32 0xFF800000#32 = (⊥ : EReal) := by
  show Ideal.ofBits .f32 0xFF800000#32 = ⊥
  simp [Ideal.ofBits, Ideal.ieee]

/-- A `max`-fold from −∞ lies below `c` exactly when every folded entry does. -/
theorem fold_le {ι : Type} (s : Finset ι) (f : ι → EReal) (c : EReal) :
    s.fold max (FloatOps.ofBits (F := Ideal) .f32 0xFF800000#32) f ≤ c ↔ ∀ k ∈ s, f k ≤ c := by
  rw [Finset.fold_max_le, negInf_word]
  exact ⟨fun h => h.2, fun h => ⟨bot_le, h⟩⟩

theorem lift_row (h : S16x4x32.Reduces [2] S16x4) (b : Fin 16) (q : Fin 4) (r : Fin 32) :
    h.lift (ix2 b q) r = ix3 b q r := by
  funext a; match a with | ⟨0, _⟩ => rfl | ⟨1, _⟩ => rfl | ⟨2, _⟩ => rfl

theorem lift_lane (h : S16x4x32x256.Reduces [3] S16x4x32) (b : Fin 16) (q : Fin 4) (r : Fin 32) (l : Fin 256) :
    h.lift (ix3 b q r) l = ix4 b q r l := by
  funext a; match a with | ⟨0, _⟩ => rfl | ⟨1, _⟩ => rfl | ⟨2, _⟩ => rfl | ⟨3, _⟩ => rfl

/-- The maximum over a slab's 32 rows, from −∞: below `c` exactly when every row's entry is. -/
theorem rowMax_le (src : FVec Ideal S16x4x32 .f32) (h : S16x4x32.Reduces [2] S16x4) (hφ : FKind.Formats .f32)
    (hacc : (0xFF800000#32 : BitVec 32) = 0xFF800000#32) (b : Fin 16) (q : Fin 4) (c : EReal) :
    multiReduction .maximumf [2] S16x4 src 0xFF800000#32 h hφ hacc (ix2 b q) ≤ c ↔ ∀ r : Fin 32, src (ix3 b q r) ≤ c := by
  rw [show multiReduction .maximumf [2] S16x4 src 0xFF800000#32 h hφ hacc (ix2 b q) = _ from
    Ideal.multiReduction_maximumf_single src _ h hφ hacc (ix2 b q), fold_le]
  constructor
  · intro H r
    have hr : src (h.lift (ix2 b q) r) ≤ c := H r (Finset.mem_univ _)
    rwa [lift_row] at hr
  · intro H (r : Fin 32) _
    show src (h.lift (ix2 b q) r) ≤ c
    rw [lift_row]; exact H r

/-- The maximum over a row's 256 lanes, from −∞. -/
theorem laneMax_le (src : FVec Ideal S16x4x32x256 .f32) (h : S16x4x32x256.Reduces [3] S16x4x32) (hφ : FKind.Formats .f32)
    (hacc : (0xFF800000#32 : BitVec 32) = 0xFF800000#32) (b : Fin 16) (q : Fin 4) (r : Fin 32) (c : EReal) :
    multiReduction .maximumf [3] S16x4x32 src 0xFF800000#32 h hφ hacc (ix3 b q r) ≤ c ↔ ∀ l : Fin 256, src (ix4 b q r l) ≤ c := by
  rw [show multiReduction .maximumf [3] S16x4x32 src 0xFF800000#32 h hφ hacc (ix3 b q r) = _ from
    Ideal.multiReduction_maximumf_single src _ h hφ hacc (ix3 b q r), fold_le]
  constructor
  · intro H l
    have hl : src (h.lift (ix3 b q r) l) ≤ c := H l (Finset.mem_univ _)
    rwa [lift_lane] at hl
  · intro H (l : Fin 256) _
    show src (h.lift (ix3 b q r) l) ≤ c
    rw [lift_lane]; exact H l

/-- The reset value is −∞ everywhere. -/
theorem reset_apply (j : S16x4.Idx) : k0_pay1 (F := Ideal) j = (⊥ : EReal) := by
  unfold k0_pay1
  rw [shapeCast_self]
  exact negInf_word

/-- One chunk's update at `(b, q)`: below `c` exactly when the old value and all 32 × 256 entries of the slab are. -/
theorem update_le (v12 : FVec Ideal S16x4x32x256 .f32) (v15 : FVec Ideal S16x4 .f32) (b : Fin 16) (q : Fin 4) (c : EReal) :
    k0_pay2 (F := Ideal) v12 v15 (ix2 b q) ≤ c ↔ v15 (ix2 b q) ≤ c ∧ ∀ (r : Fin 32) (l : Fin 256), v12 (ix4 b q r l) ≤ c := by
  unfold k0_pay2
  rw [shapeCast_self, maximumf_apply, max_le_iff, rowMax_le]
  refine and_congr_right fun _ => forall_congr' fun r => ?_
  rw [laneMax_le]

/-- The output block is the scratch with a unit leading axis. -/
theorem copy_apply (v5 : FVec Ideal S16x4 .f32) (b : Fin 16) (q : Fin 4) :
    k0_pay3 (F := Ideal) v5 (ix3 (0 : Fin 1) b q) = v5 (ix2 b q) := by
  unfold k0_pay3
  exact shapeCast_ab_1ab_apply v5 _ (0 : Fin 1) b q

end Cert.KernelIdeal.Lanes

end
-- ==== Proof.IdealChunks.lean ====
import proofs.«426101_j90726889161276_2_alg».proof.Proof.IdealPoint
import proofs.«426101_j90726889161276_2_alg».proof.Proof.IdealLanes

/-! # The scratch after `k` chunks bounds exactly the first `32 k` rows

By induction on the number of chunks folded in: the scratch entry `(b, q)` lies below `c` exactly when every
entry of rows `0 … 32k − 1` of the block's map `(b, q)` does. After all eight chunks that is the whole map, so the
output block's entry `(0, b, q)` is the maximum of the map. -/

noncomputable section

namespace Cert.KernelIdeal.Chunks

open Cert.KernelIdeal Cert.KernelIdeal.Gen
open Idealize.ShloMosaic Idealize.ShloMosaic.ValueIdx

theorem trips_eq : k0_t1_loop.trips = 8 := by decide

/-- Entry `(b, q, r, l)` of chunk `k` is entry `(b, q, 32 k + r, l)` of the block. -/
theorem chunk_entry (x : Vec Ideal S16x4x256x256 .f32) (k : Fin k0_t1_loop.trips) (b : Fin 16) (q : Fin 4) (r : Fin 32)
    (l : Fin 256) (h : Fin 256) (hh : h.val = 32 * k.val + r.val) :
    View.ld (Val := Elt Ideal) (e' := .f32) x (Point.chunk k) (ix4 b q r l) = x (ix4 b q h l) := by
  show x ((Point.chunk k).idx (ix4 b q r l)) = x (ix4 b q h l)
  refine congrArg x (funext fun a => Fin.ext ?_)
  have e := k0_off1_eq k
  match a with
  | ⟨0, _⟩ => show k0_off1 k 0 + 1 * b.val = b.val; rw [e]; simp
  | ⟨1, _⟩ => show k0_off1 k 1 + 1 * q.val = q.val; rw [e]; simp
  | ⟨2, _⟩ => show k0_off1 k 2 + 1 * r.val = h.val; rw [e, hh]; simp
  | ⟨3, _⟩ => show k0_off1 k 3 + 1 * l.val = l.val; rw [e]; simp

/-- The scratch after `k` chunks. -/
theorem runMax_le (x : Vec Ideal S16x4x256x256 .f32) (b : Fin 16) (q : Fin 4) (c : EReal) :
    ∀ k, k ≤ k0_t1_loop.trips →
      (Point.runMax (F := Ideal) x k (ix2 b q) ≤ c ↔ ∀ (h w : Fin 256), h.val < 32 * k → x (ix4 b q h w) ≤ c)
  | 0, _ => by
    rw [Point.runMax, Lanes.reset_apply]
    exact ⟨fun _ h w hh => absurd hh (by omega), fun _ => bot_le⟩
  | k + 1, hk => by
    have hk8 : k < 8 := by have := trips_eq; omega
    have step : Point.runMax (F := Ideal) x (k + 1)
        = k0_pay2 (View.ld (Val := Elt Ideal) (e' := .f32) x (Point.chunk ⟨k, hk⟩)) (Point.runMax x k) :=
      Point.runMax_succ x ⟨k, hk⟩
    rw [step]
    refine (Lanes.update_le (View.ld (Val := Elt Ideal) (e' := .f32) x (Point.chunk ⟨k, hk⟩)) (Point.runMax x k) b q c).trans ?_
    rw [runMax_le x b q c k (Nat.le_of_succ_le hk)]
    constructor
    · rintro ⟨H1, H2⟩ h w hh
      by_cases hlt : h.val < 32 * k
      · exact H1 h w hlt
      · have hr : h.val - 32 * k < 32 := by omega
        have := H2 ⟨h.val - 32 * k, hr⟩ w
        rwa [chunk_entry x ⟨k, hk⟩ b q ⟨h.val - 32 * k, hr⟩ w h (by show h.val = 32 * k + (h.val - 32 * k); omega)] at this
    · intro H
      refine ⟨fun h w hh => H h w (by omega), fun r l => ?_⟩
      have hlt : 32 * k + r.val < 256 := by have := r.isLt; omega
      rw [chunk_entry x ⟨k, hk⟩ b q r l ⟨32 * k + r.val, hlt⟩ rfl]
      exact H _ _ (by show 32 * k + r.val < 32 * (k + 1); have := r.isLt; omega)

/-- The output block's entry `(0, b, q)` is the maximum of the block's map `(b, q)`. -/
theorem outBlock_le (x : Vec Ideal S16x4x256x256 .f32) (b : Fin 16) (q : Fin 4) (c : EReal) :
    Point.outBlock (F := Ideal) x (ix3 (0 : Fin 1) b q) ≤ c ↔ ∀ (h w : Fin 256), x (ix4 b q h w) ≤ c := by
  unfold Point.outBlock
  rw [Lanes.copy_apply (Point.runMax x k0_t1_loop.trips) b q, runMax_le x b q c _ le_rfl]
  exact ⟨fun H h w => H h w (by rw [trips_eq]; exact h.isLt), fun H h w _ => H h w⟩

end Cert.KernelIdeal.Chunks

end
-- ==== Proof.ChannelMax.lean ====
import Idealize.ShloMosaic.PureOps.Ideal.Laws
import Idealize.ShloMosaic.PureOps.Reduce
import Idealize.ShloMosaic.Lib.ValueIdx
import Idealize.ShloMosaic.Lib.Pipeline.Value

/-! # The maximum of one channel's probability map

The maps are a 16 × 64 × 256 × 256 array of extended reals. The maximum of channel `(b, ch)` is pinned down by
its universal property: an extended real lies above it exactly when it lies above each of the channel's
256 × 256 entries. Any two values with that property are equal, whatever order or grouping they were folded in.
Here the property is shown of the plain way to compute it: flatten each map to 65536 entries and take one
`max`-reduction from −∞ along them. -/

noncomputable section

namespace ChannelMax

open Idealize.ShloMosaic Idealize.ShloMosaic.ValueIdx

abbrev Maps : Shape := ⟨4, ![16, 64, 256, 256]⟩
abbrev Flat : Shape := ⟨3, ![16, 64, 65536]⟩
abbrev Chans : Shape := ⟨2, ![16, 64]⟩
abbrev Scalar0 : Shape := ⟨0, ![]⟩

/-- `v` is the maximum of channel `(b, ch)` of `X`. -/
def IsChannelMax (X : Maps.Idx → EReal) (b : Fin 16) (ch : Fin 64) (v : EReal) : Prop :=
  ∀ c : EReal, v ≤ c ↔ ∀ h w : Fin 256, X (ix4 b ch h w) ≤ c

theorem IsChannelMax.unique {X : Maps.Idx → EReal} {b : Fin 16} {ch : Fin 64} {v v' : EReal}
    (h : IsChannelMax X b ch v) (h' : IsChannelMax X b ch v') : v = v' :=
  eq_of_forall_ge_iff fun c => (h c).trans (h' c).symm

/-- The word of −∞ reads as the bottom of the extended reals. -/
theorem negInf_word : Ideal.ofBits .f32 0xFF800000#32 = (⊥ : EReal) := by
  simp [Ideal.ofBits, Ideal.ieee]

/-- A `max`-fold from −∞ lies below `c` exactly when every folded entry does. -/
theorem fold_max_bot_le {ι : Type} (s : Finset ι) (f : ι → EReal) (c : EReal) :
    s.fold (FloatOps.maximumf (F := Ideal) (φ := .f32)) (Ideal.ofBits .f32 0xFF800000#32) f ≤ c ↔ ∀ k ∈ s, f k ≤ c := by
  show s.fold max _ f ≤ c ↔ _
  rw [Finset.fold_max_le, negInf_word]
  exact ⟨fun h => h.2, fun h => ⟨bot_le, h⟩⟩

/-- Flat position `256 h + w` of a map is its entry `(h, w)`. -/
theorem flat_entry (X : Maps.Idx → EReal) (hc : Maps.ShapeCasts Flat) (b : Fin 16) (ch : Fin 64) (h w : Fin 256)
    (k : Fin 65536) (hk : k.val = h.val * 256 + w.val) :
    shapeCast Flat X hc (ix3 b ch k) = X (ix4 b ch h w) := by
  refine shapeCast_apply X hc _ _ ?_
  rw [Shape.rowMajor_val_four, Shape.rowMajor_val_three]
  show ((b.val * 64 + ch.val) * 256 + h.val) * 256 + w.val = (b.val * 64 + ch.val) * 65536 + k.val
  omega

/-- Result index `(b, ch)` with coordinate `k` put back on the reduced axis. -/
theorem lift_flat (hR : Flat.Reduces [2] Chans) (b : Fin 16) (ch : Fin 64) (k : Fin 65536) :
    hR.lift (ix2 b ch) k = ix3 b ch k := by
  funext a; match a with | ⟨0, _⟩ => rfl | ⟨1, _⟩ => rfl | ⟨2, _⟩ => rfl

/-- One `max`-reduction from −∞ over the flattened maps gives every channel's maximum. -/
theorem hostReduce_isChannelMax (X : Maps.Idx → EReal) (hc : Maps.ShapeCasts Flat) (hr : Flat.ReducesTo [2] Chans)
    (hu : 0 < Scalar0.numel) (b : Fin 16) (ch : Fin 64) :
    IsChannelMax X b ch
      (Host.reduce (FloatOps.maximumf (F := Ideal) (φ := .f32)) (shapeCast Flat X hc)
        (constant (F := Ideal) Scalar0 .f32 0xFF800000#32) hr hu (ix2 b ch)) := by
  intro c
  have hR : Flat.Reduces [2] Chans := by decide
  rw [Host.reduce_eq_fold_single _ _ _ hr hR hu, constant_apply, fold_max_bot_le]
  constructor
  · intro H h w
    have hlt : h.val * 256 + w.val < 65536 := by have := h.isLt; have := w.isLt; omega
    have hk : shapeCast Flat X hc (hR.lift (ix2 b ch) (⟨h.val * 256 + w.val, hlt⟩ : Fin 65536)) ≤ c :=
      H _ (Finset.mem_univ _)
    rw [lift_flat, flat_entry X hc b ch h w _ rfl] at hk
    exact hk
  · intro H (k : Fin 65536) _
    show shapeCast Flat X hc (hR.lift (ix2 b ch) k) ≤ c
    rw [lift_flat,
      flat_entry X hc b ch ⟨k.val / 256, by have := k.isLt; omega⟩ ⟨k.val % 256, Nat.mod_lt _ (by decide)⟩ k (by
        show k.val = k.val / 256 * 256 + k.val % 256; omega)]
    exact H _ _

end ChannelMax

end
-- ==== Proof.IdealTiles.lean ====
import proofs.«426101_j90726889161276_2_alg».proof.Proof.IdealRun
import proofs.«426101_j90726889161276_2_alg».proof.Proof.IdealChunks
import proofs.«426101_j90726889161276_2_alg».proof.Proof.ChannelMax
import Idealize.ShloMosaic.Lib.Pipeline.Value

/-! # From the sixteen output blocks to the output array

Point `t` reads channels `4t … 4t+3` of the probability maps and writes back block `t` of the 16 × 16 × 4 output
array. So entry `(t, b, q)` of the output array is the maximum of map `(b, 4t + q)`. -/

set_option maxRecDepth 16384

noncomputable section

namespace Cert.KernelIdeal.Tiles

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The probability maps as launched. -/
abbrev maps (c : Dev nD) : Vec Ideal S16x64x256x256 .f32 := m ((c : Thread nD τ).loc main_arg5)

/-- Grid point number `i`. -/
def tile (i : Fin 16) : Fin cfg0.N := ⟨i.val, by rw [show cfg0.N = 16 from N_0]; exact i.isLt⟩

/-- The printed index maps over the grid: point `t` takes input block `(0, t, 0, 0)` and output block `(t, 0, 0)`. -/
theorem in_index : ∀ t : Fin cfg0.N, win0_0.index t = ![0, t.val, 0, 0] :=
  (by decide +kernel : ∀ t : Fin grid0.N, win0_0.index t = ![0, t.val, 0, 0])
theorem out_index : ∀ t : Fin cfg0.N, win0_1.index t = ![t.val, 0, 0] :=
  (by decide +kernel : ∀ t : Fin grid0.N, win0_1.index t = ![t.val, 0, 0])

/-- Entry `(b, q, h, w)` of the input block at point `t` is entry `(b, 4t + q, h, w)` of the maps. -/
theorem block_entry (c : Dev nD) (t : Fin cfg0.N) (b : Fin 16) (q : Fin 4) (h w : Fin 256) (ch : Fin 64)
    (hch : ch.val = 4 * t.val + q.val) :
    Region.blockAt m c 0 t (ix4 b q h w) = maps m c (ix4 b ch h w) := by
  unfold Region.blockAt
  rw [show Host.entryBuf m c (Pipeline.arrRef spec0 0) = m ((c : Thread nD τ).loc main_arg5) from
    Host.entryBuf_untouched m c main_arg5 (by simp [Host.untouched])]
  show maps m c (((cfg0.win 0).blk t).view.emb (ix4 b q h w)) = maps m c (ix4 b ch h w)
  refine congrArg (maps m c) (funext fun a => Fin.ext ?_)
  have e := in_index t
  match a with
  | ⟨0, _⟩ => show win0_0.index t (0 : Fin 4) * 16 + 1 * b.val = b.val; rw [e]; simp
  | ⟨1, _⟩ => show win0_0.index t (1 : Fin 4) * 4 + 1 * q.val = ch.val; rw [e, hch]; simp; omega
  | ⟨2, _⟩ => show win0_0.index t (2 : Fin 4) * 256 + 1 * h.val = h.val; rw [e]; simp
  | ⟨3, _⟩ => show win0_0.index t (3 : Fin 4) * 256 + 1 * w.val = w.val; rw [e]; simp

/-- The output array as one function: entry `(i, b, q)` is what point `i` leaves at `(0, b, q)` of its block. -/
def outArray (c : Dev nD) : S16x16x4.Idx → Elt Ideal .f32 := fun i =>
  Point.outBlock (Region.blockAt m c 0 (tile (i 0))) (ix3 (0 : Fin 1) (i 1 : Fin 16) (i 2 : Fin 4))

/-- What point `t` writes back is block `t` of `outArray`. -/
theorem flushed_eq (c : Dev nD) (t : Fin cfg0.N) :
    (Region.data m 0 c).flushed 1 t = ((cfg0.win 1).blk t).view.read (Elt Ideal) (outArray m c) := by
  show (cfg0.win 1).cut (grid0.coords t) ((Region.data m 0 c).after 1 t) = _
  rw [Region.after_out]
  funext j
  show Point.outBlock (Region.blockAt m c 0 t) j = outArray m c (((cfg0.win 1).blk t).view.emb j)
  unfold outArray
  have e := out_index t
  have hj0 : (j 0).val = 0 := by
    have h1 : (j 0).val < 1 := (j 0).isLt
    omega
  have e0 : tile ((((cfg0.win 1).blk t).view.emb j) 0) = t := Fin.ext (by
    show win0_1.index t (0 : Fin 3) * 1 + 1 * (j 0).val = t.val; rw [e, hj0]; simp)
  have e1 : ((((cfg0.win 1).blk t).view.emb j) 1 : Fin 16) = (j 1 : Fin 16) := Fin.ext (by
    show win0_1.index t (1 : Fin 3) * 16 + 1 * (j 1).val = (j 1).val; rw [e]; simp)
  have e2 : ((((cfg0.win 1).blk t).view.emb j) 2 : Fin 4) = (j 2 : Fin 4) := Fin.ext (by
    show win0_1.index t (2 : Fin 3) * 4 + 1 * (j 2).val = (j 2).val; rw [e]; simp)
  rw [e0, e1, e2]
  refine congrArg (Point.outBlock (Region.blockAt m c 0 t)) (funext fun a => Fin.ext ?_)
  match a with
  | ⟨0, _⟩ => exact hj0
  | ⟨1, _⟩ => rfl
  | ⟨2, _⟩ => rfl

/-- An index of the output array lies in point `t`'s block iff each coordinate is in the block's range. -/
theorem mem_block (t : Fin cfg0.N) (i : S16x16x4.Idx) :
    i ∈ ((cfg0.win 1).blk t).view.set ↔ ∀ a : Fin 3, win0_1.index t a * S1x16x4.size a ≤ (i a).val
      ∧ (i a).val < win0_1.index t a * S1x16x4.size a + S1x16x4.size a := by
  show i ∈ ((View.whole main_call0_v14).slice (win0_1.rect t)).set ↔ _
  rw [View.set_slice_whole, Rect.mem_set_unit]
  exact Iff.rfl

/-- Every index of the output array is in some point's block. -/
theorem covered (i : S16x16x4.Idx) :
    ∃ t : Fin cfg0.N, (cfg0.win 1).flush t = true ∧ i ∈ ((cfg0.win 1).blk t).view.set := by
  refine ⟨tile (i 0), flush0_1 _, ?_⟩
  rw [mem_block]
  have e := out_index (tile (i 0))
  have h1 : (i 1).val < 16 := (i 1).isLt
  have h2 : (i 2).val < 4 := (i 2).isLt
  intro a
  match a with
  | ⟨0, _⟩ => show win0_1.index (tile (i 0)) (0 : Fin 3) * 1 ≤ (i 0).val ∧ (i 0).val < win0_1.index (tile (i 0)) (0 : Fin 3) * 1 + 1
              rw [e]; simp [tile]
  | ⟨1, _⟩ => show win0_1.index (tile (i 0)) (1 : Fin 3) * 16 ≤ (i 1).val ∧ (i 1).val < win0_1.index (tile (i 0)) (1 : Fin 3) * 16 + 16
              rw [e]; simp; omega
  | ⟨2, _⟩ => show win0_1.index (tile (i 0)) (2 : Fin 3) * 4 ≤ (i 2).val ∧ (i 2).val < win0_1.index (tile (i 0)) (2 : Fin 3) * 4 + 4
              rw [e]; simp; omega

/-- The output array after the region. -/
theorem out_array (c : Dev nD) : (Region.data m 0 c).arrAt 1 cfg0.N = outArray m c :=
  (Region.data m 0 c).arrAt_eq_of_cover 1 (outArray m c) (fun t _ => flushed_eq m c t) covered

/-- Entry `(i, b, q)` of the output array is the maximum of map `(b, 4i + q)`. -/
theorem outArray_isChannelMax (c : Dev nD) (i b : Fin 16) (q : Fin 4) (ch : Fin 64) (hch : ch.val = 4 * i.val + q.val) :
    ChannelMax.IsChannelMax (maps m c) b ch (outArray m c (ix3 i b q)) := by
  intro cc
  show Point.outBlock (Region.blockAt m c 0 (tile i)) (ix3 (0 : Fin 1) b q) ≤ cc ↔ _
  rw [Chunks.outBlock_le]
  refine forall_congr' fun h => forall_congr' fun w => ?_
  rw [block_entry m c (tile i) b q h w ch hch]

end Cert.KernelIdeal.Tiles

end
-- ==== Proof.IdealMaxProb.lean ====
import proofs.«426101_j90726889161276_2_alg».proof.Proof.IdealTiles
import proofs.«426101_j90726889161276_2_alg».proof.Proof.ChannelMax
import Idealize.ShloMosaic.Lib.Pipeline.Value
import Idealize.ShloMosaic.Lib.ValueLayout

/-! # The per-channel maxima, as the tail of @main sees them

After the region, @main swaps the first two axes of the 16 × 16 × 4 output array (tile, batch row, lane →
batch row, tile, lane) and flattens the last two, so that channel `ch = 4·tile + lane` of batch row `b` sits at
`(b, ch)`. That entry is the maximum of map `(b, ch)`; the flat `max`-reduction has the same property, so the two
16 × 64 arrays are equal. -/

noncomputable section

namespace Cert.KernelIdeal.MaxProb

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The output array re-laid as batch row × channel. -/
def perChannel (out : S16x16x4.Idx → Elt Ideal .f32) (ht : S16x16x4.Transposes [1, 0, 2] S16x16x4)
    (hc : S16x16x4.ShapeCasts S16x64) : S16x64.Idx → Elt Ideal .f32 :=
  shapeCast S16x64 (transpose S16x16x4 [1, 0, 2] out ht) hc

/-- Entry `(b, ch)` of the re-laid array is entry `(ch / 4, b, ch % 4)` of the output array. -/
theorem perChannel_apply (out : S16x16x4.Idx → Elt Ideal .f32) (ht : S16x16x4.Transposes [1, 0, 2] S16x16x4)
    (hc : S16x16x4.ShapeCasts S16x64) (b : Fin 16) (ch : Fin 64) (i : Fin 16) (q : Fin 4) (hch : ch.val = 4 * i.val + q.val) :
    perChannel out ht hc (ix2 b ch) = out (ix3 i b q) := by
  unfold perChannel
  rw [shapeCast_apply _ hc (ix2 b ch) (ix3 b i q) (by
    rw [Shape.rowMajor_val_three, Shape.rowMajor_val_two]
    show (b.val * 16 + i.val) * 4 + q.val = b.val * 64 + ch.val
    omega)]
  exact transpose_apply _ out ht (ix3 b i q) (ix3 i b q) fun a => match a with
    | ⟨0, _⟩ => rfl | ⟨1, _⟩ => rfl | ⟨2, _⟩ => rfl

/-- The re-laid output array holds every channel's maximum. -/
theorem perChannel_isChannelMax (c : Dev nD) (ht : S16x16x4.Transposes [1, 0, 2] S16x16x4)
    (hc : S16x16x4.ShapeCasts S16x64) (b : Fin 16) (ch : Fin 64) :
    ChannelMax.IsChannelMax (Tiles.maps m c) b ch (perChannel (Tiles.outArray m c) ht hc (ix2 b ch)) := by
  have hi : ch.val / 4 < 16 := by have := ch.isLt; omega
  have hq : ch.val % 4 < 4 := Nat.mod_lt _ (by decide)
  have hch : ch.val = 4 * (⟨ch.val / 4, hi⟩ : Fin 16).val + (⟨ch.val % 4, hq⟩ : Fin 4).val := by
    show ch.val = 4 * (ch.val / 4) + ch.val % 4; omega
  rw [perChannel_apply _ ht hc b ch ⟨ch.val / 4, hi⟩ ⟨ch.val % 4, hq⟩ hch]
  exact Tiles.outArray_isChannelMax m c _ b _ ch hch

/-- So it is the flat `max`-reduction of the maps. -/
theorem perChannel_eq_flatMax (c : Dev nD) (ht : S16x16x4.Transposes [1, 0, 2] S16x16x4) (hc : S16x16x4.ShapeCasts S16x64)
    (hf : ChannelMax.Maps.ShapeCasts ChannelMax.Flat) (hr : ChannelMax.Flat.ReducesTo [2] ChannelMax.Chans)
    (hu : 0 < ChannelMax.Scalar0.numel) :
    perChannel (Tiles.outArray m c) ht hc
      = Host.reduce (FloatOps.maximumf (F := Ideal) (φ := .f32)) (shapeCast ChannelMax.Flat (Tiles.maps m c) hf)
          (constant (F := Ideal) ChannelMax.Scalar0 .f32 0xFF800000#32) hr hu := by
  funext j
  obtain ⟨b, ch, rfl⟩ : ∃ (b : Fin 16) (ch : Fin 64), j = ix2 b ch := ⟨j 0, j 1, eq_ix2 j⟩
  exact (perChannel_isChannelMax m c ht hc b ch).unique (ChannelMax.hostReduce_isChannelMax (Tiles.maps m c) hf hr hu b ch)

end Cert.KernelIdeal.MaxProb

end
-- ==== Proof.RefRun.lean ====
import proofs.«426101_j90726889161276_2_alg».proof.Proof.RefOps
import Idealize.ShloMosaic.Lib.StableHlo.Run

/-! # The reference program leaves its arguments alone

The reference is a straight line of host operations, each writing its own result buffer, so when it ends every
buffer holds the fold of the operations over the launch contents, and no operation's result buffer is an
argument: the seven argument arrays end as they began. -/

set_option maxRecDepth 65536

noncomputable section

namespace Cert.ReferenceIdeal.Fold

open Cert.ReferenceIdeal Cert.ReferenceIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 40000000 in
theorem args_kept (r : PUnit × MemSt nD τ sig (Elt F))
    (h : ∀ (d : Dev nD) (b : Ref sig .tc),
      r.2.mem ((d.tc : Thread nD τ).loc b) = after (ValueP.ops (F := F)) (launchContents m d) (Proc.devRef .tc b))
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c main_arg0).trans (by after_results_simp <;> rfl),
   (h c main_arg1).trans (by after_results_simp <;> rfl),
   (h c main_arg2).trans (by after_results_simp <;> rfl),
   (h c main_arg3).trans (by after_results_simp <;> rfl),
   (h c main_arg4).trans (by after_results_simp <;> rfl),
   (h c main_arg5).trans (by after_results_simp <;> rfl),
   (h c main_arg6).trans (by after_results_simp <;> rfl)⟩

/-- The reference runs to the end and its seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_kept m r h c) (ValueP.run_fold m ρ)

end Cert.ReferenceIdeal.Fold

end
-- ==== Proof.Agree.lean ====
import proofs.«426101_j90726889161276_2_alg».proof.Proof.IdealHost
import proofs.«426101_j90726889161276_2_alg».proof.Proof.RefOps
import Idealize.ShloMosaic.Lib.StableHlo.Run
import Idealize.ShloMosaic.Lib.Pipeline.FrameSuffix

/-! # The two programs compute their losses by the same host operations

Apart from how the per-channel maxima are obtained, the kernel's program and the reference apply the same host
operations in the same order: the index slicing and class ids before, and after it the gathers, the removal
mask and the weights, the smooth-L1 and cross-entropy terms and the two weighted means. So once the per-channel
maxima agree and the two memories hold the same arguments, each result buffer of the one program holds what the
corresponding buffer of the other holds. Both sides are read as the fold of their operations, evaluated one
operation at a time; what is left to compare is two copies of one expression. This is stated for any float
family: nothing here depends on what a float is. -/

set_option maxRecDepth 65536

noncomputable section

namespace Cert.Agree

open Idealize.ShloMosaic Idealize.ShloMosaic.TcCoe Idealize.SL.Sem Idealize.ShloMosaic.StableHlo

variable {F : FTy → Type} [FloatOps F]
variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)
variable (c : Dev Cert.KernelIdeal.nD)
variable (A : (w : Fin 2) → Buf (Elt F) ((Cert.KernelIdeal.spec0 w).arr.view.loc (c.tc : Thread Cert.KernelIdeal.nD Cert.KernelIdeal.τ)))

/-- The kernel program's memory when the region is left: its two arrays at `A`, everything else as at its entry. -/
abbrev atExit : Valuation Cert.KernelIdeal.τ Cert.KernelIdeal.sig (Elt F) := Pipeline.withArrays Cert.KernelIdeal.spec0 c (Cert.KernelIdeal.Host.atEntry m c) A

/-- A buffer that is no array of the region is, after the region, what it was at the region's entry. -/
theorem bypass (b : Ref Cert.KernelIdeal.sig .tc) (hb : ∀ w, Pipeline.arrRef Cert.KernelIdeal.spec0 w ≠ b) :
    Pipeline.withArrays Cert.KernelIdeal.spec0 c (Cert.KernelIdeal.Host.atEntry m c) A (Proc.devRef .tc b)
      = Cert.KernelIdeal.Host.atEntry m c (Proc.devRef .tc b) :=
  Pipeline.withArrays_of_ne Cert.KernelIdeal.spec0 c (Cert.KernelIdeal.Host.atEntry m c) A b hb

/-- The region's output array after the region is `A 1`. -/
theorem regionOut :
    Pipeline.withArrays Cert.KernelIdeal.spec0 c (Cert.KernelIdeal.Host.atEntry m c) A (Proc.devRef .tc Cert.KernelIdeal.main_call0_v14) = A 1 :=
  Pipeline.withArrays_arr Cert.KernelIdeal.spec0 Cert.KernelIdeal.Gen.launch0.win.arr_inj c _ _ 1

/-- The two memories hold the same arguments (the probability maps apart: they enter through the maxima). -/
structure SameArgs : Prop where
  a0 : launchContents m' c (Proc.devRef .tc Cert.ReferenceIdeal.main_arg0) = m (c, Proc.devRef .tc Cert.KernelIdeal.main_arg0)
  a1 : launchContents m' c (Proc.devRef .tc Cert.ReferenceIdeal.main_arg1) = m (c, Proc.devRef .tc Cert.KernelIdeal.main_arg1)
  a2 : launchContents m' c (Proc.devRef .tc Cert.ReferenceIdeal.main_arg2) = m (c, Proc.devRef .tc Cert.KernelIdeal.main_arg2)
  a3 : launchContents m' c (Proc.devRef .tc Cert.ReferenceIdeal.main_arg3) = m (c, Proc.devRef .tc Cert.KernelIdeal.main_arg3)
  a4 : launchContents m' c (Proc.devRef .tc Cert.ReferenceIdeal.main_arg4) = m (c, Proc.devRef .tc Cert.KernelIdeal.main_arg4)
  a6 : launchContents m' c (Proc.devRef .tc Cert.ReferenceIdeal.main_arg6) = m (c, Proc.devRef .tc Cert.KernelIdeal.main_arg6)

/-- The two programs' per-channel maxima buffers hold the same. -/
def SameMaxima : Prop :=
  StableHlo.after (Cert.ReferenceIdeal.ValueP.ops (F := F)) (launchContents m' c) (Proc.devRef .tc Cert.ReferenceIdeal.main_v15)
    = StableHlo.after (Cert.KernelIdeal.Gen.hostOps1 (F := F)) (atExit m c A) (Proc.devRef .tc Cert.KernelIdeal.main_call0_v16)

set_option maxHeartbeats 40000000 in
/-- The smooth-L1 loss. -/
theorem iou_loss (hs : SameArgs m m' c) (hmp : SameMaxima m m' c A) :
    StableHlo.after (Cert.KernelIdeal.Gen.hostOps1 (F := F)) (atExit m c A) (Proc.devRef .tc Cert.KernelIdeal.main_v0_0)
      = StableHlo.after (Cert.ReferenceIdeal.ValueP.ops (F := F)) (launchContents m' c) (Proc.devRef .tc Cert.ReferenceIdeal.main_v79) := by
  obtain ⟨ha0, ha1, ha2, ha3, ha4, ha6⟩ := hs
  unfold SameMaxima at hmp
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq, regionOut m c A,
      bypass m c A Cert.KernelIdeal.main_call0_v0 (by decide),
      bypass m c A Cert.KernelIdeal.main_call0_v2 (by decide),
      bypass m c A Cert.KernelIdeal.main_call0_v12 (by decide),
      bypass m c A Cert.KernelIdeal.main_call0_v13 (by decide),
      bypass m c A Cert.KernelIdeal.main_arg0 (by decide),
      bypass m c A Cert.KernelIdeal.main_arg1 (by decide),
      bypass m c A Cert.KernelIdeal.main_arg6 (by decide)] at hmp ⊢
  simp (disch := decide) only [Cert.KernelIdeal.Host.atEntry, List.flatten_cons, List.flatten_nil, List.append_nil, List.cons_append, List.nil_append, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq] at hmp ⊢
  rw [hmp]
  simp only [ha0, ha1, ha2, ha3, ha4, ha6]
  rfl

set_option maxHeartbeats 40000000 in
/-- The cross-entropy loss. -/
theorem cls_loss (hs : SameArgs m m' c) (hmp : SameMaxima m m' c A) :
    StableHlo.after (Cert.KernelIdeal.Gen.hostOps1 (F := F)) (atExit m c A) (Proc.devRef .tc Cert.KernelIdeal.main_v0_1)
      = StableHlo.after (Cert.ReferenceIdeal.ValueP.ops (F := F)) (launchContents m' c) (Proc.devRef .tc Cert.ReferenceIdeal.main_v82) := by
  obtain ⟨ha0, ha1, ha2, ha3, ha4, ha6⟩ := hs
  unfold SameMaxima at hmp
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq, regionOut m c A,
      bypass m c A Cert.KernelIdeal.main_call0_v0 (by decide),
      bypass m c A Cert.KernelIdeal.main_call0_v2 (by decide),
      bypass m c A Cert.KernelIdeal.main_call0_v12 (by decide),
      bypass m c A Cert.KernelIdeal.main_call0_v13 (by decide),
      bypass m c A Cert.KernelIdeal.main_arg0 (by decide),
      bypass m c A Cert.KernelIdeal.main_arg1 (by decide),
      bypass m c A Cert.KernelIdeal.main_arg6 (by decide)] at hmp ⊢
  simp (disch := decide) only [Cert.KernelIdeal.Host.atEntry, List.flatten_cons, List.flatten_nil, List.append_nil, List.cons_append, List.nil_append, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq] at hmp ⊢
  rw [hmp]
  simp only [ha0, ha1, ha2, ha3, ha4, ha6]
  rfl

end Cert.Agree

end
-- ==== Proof.lean ====
/- The kernel takes, for every batch row and channel, the maximum of a 256 × 256 probability map: four channels per
   grid point, each map folded chunk by chunk (32 rows at a time: first along the lanes, then along the rows, then into a
   running maximum that starts at −∞). The reference flattens each map and takes one maximum from −∞. A maximum over the
   extended reals does not depend on order or grouping, so the two 16 × 64 arrays of maxima are equal; every later host
   operation (gathers, weights, the smooth-L1 and cross-entropy terms, the two weighted means) is the same in both programs,
   so both results are equal. No finiteness of the inputs is used.
   The three frames: each program runs to the end without a fault and leaves its seven argument arrays as they were. -/
import proofs.«426101_j90726889161276_2_alg».proof.Defs
import proofs.«426101_j90726889161276_2_alg».proof.Proof.Gen.Kernel
import proofs.«426101_j90726889161276_2_alg».proof.Proof.Gen.KernelIdeal
import proofs.«426101_j90726889161276_2_alg».proof.Proof.Gen.ReferenceIdeal
import proofs.«426101_j90726889161276_2_alg».proof.Proof.Gen.Pre_finite_inputs
import proofs.«426101_j90726889161276_2_alg».proof.Proof.WordRun
import proofs.«426101_j90726889161276_2_alg».proof.Proof.IdealRun
import proofs.«426101_j90726889161276_2_alg».proof.Proof.IdealMaxProb
import proofs.«426101_j90726889161276_2_alg».proof.Proof.RefRun
import proofs.«426101_j90726889161276_2_alg».proof.Proof.Agree
import Idealize.ShloMosaic.Adequacy
import Idealize.ShloMosaic.Init

set_option maxRecDepth 65536

noncomputable section

namespace Cert.Proof

open Idealize.ShloMosaic Idealize.ShloMosaic.TcCoe Idealize.SL.Sem Idealize.ShloMosaic.StableHlo

section Maxima

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- What the region leaves in its two arrays on core `c`. -/
abbrev regionArrays : (w : Fin 2) → Buf (Elt Ideal) ((Cert.KernelIdeal.spec0 w).arr.view.loc (c.tc : Thread Cert.KernelIdeal.nD Cert.KernelIdeal.τ)) :=
  fun w => (Cert.KernelIdeal.Region.data m 0 c).arrAt w Cert.KernelIdeal.cfg0.N

/-- A buffer's contents when the kernel program ends: the tail's operations applied to the region's exit contents. -/
theorem exit_value (b : Ref Cert.KernelIdeal.sig .tc) :
    Pipeline.afterTail₀ Cert.KernelIdeal.cfgs (Cert.KernelIdeal.Region.data m) 0 (Cert.KernelIdeal.Host.atEntry m) [Cert.KernelIdeal.Gen.hostOps1] c b
      = StableHlo.after Cert.KernelIdeal.Gen.hostOps1 (Agree.atExit m c (regionArrays m c)) (Proc.devRef .tc b) := by
  unfold Pipeline.afterTail₀
  simp only [List.flatten_cons, List.flatten_nil, List.append_nil]

set_option maxHeartbeats 4000000 in
/-- On memories with the same probability maps, the two programs' per-channel maxima buffers hold the same. -/
theorem same_maxima
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Agree.SameMaxima m m' c (regionArrays m c) := by
  have e := Cert.KernelIdeal.MaxProb.perChannel_eq_flatMax m c Cert.KernelIdeal.Gen.transposes_S16x16x4_S16x16x4_1_0_2
    Cert.KernelIdeal.Gen.shapeCasts_S16x16x4_S16x64 Cert.ReferenceIdeal.Gen.shapeCasts_S16x64x256x256_S16x64x65536
    Cert.ReferenceIdeal.Gen.reducesTo_S16x64x65536_S16x64_d2 Cert.ReferenceIdeal.Gen.h_S_
  rw [← Cert.KernelIdeal.Tiles.out_array m c] at e
  unfold Agree.SameMaxima
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.ofBuf, TRef.toBuf, cast_eq, Agree.regionOut m c (regionArrays m c)]
  rw [show launchContents m' c (Proc.devRef .tc Cert.ReferenceIdeal.main_arg5) = m ((c.tc : Thread Cert.KernelIdeal.nD Cert.KernelIdeal.τ).loc Cert.KernelIdeal.main_arg5) from h5]
  exact e.symm

end Maxima

theorem claim : Cert.Claim :=
  ⟨Cert.Kernel.Gen.facts, Cert.KernelIdeal.Gen.facts, Cert.ReferenceIdeal.Gen.facts, Cert.Pre_finite_inputs.Gen.facts,
    fun m ρ _ => Cert.Kernel.Region.frame m ρ,
    fun m ρ _ => Cert.KernelIdeal.Region.frame m ρ,
    fun m ρ _ => Cert.ReferenceIdeal.Fold.frame m ρ,
    trivial,
    fun m ρ m' ρ' _ hagree =>
      ⟨fun c => StableHlo.after Cert.ReferenceIdeal.ValueP.ops (launchContents m' c) (Proc.devRef .tc Cert.ReferenceIdeal.main_v79),
       fun c => StableHlo.after Cert.ReferenceIdeal.ValueP.ops (launchContents m' c) (Proc.devRef .tc Cert.ReferenceIdeal.main_v82),
        (θ_run Cert.KernelIdeal.defs _ _).mono (fun r h c =>
          have hs : Agree.SameArgs m m' c :=
            ⟨(hagree c).1, (hagree c).2.1, (hagree c).2.2.1, (hagree c).2.2.2.1, (hagree c).2.2.2.2.1, (hagree c).2.2.2.2.2.2⟩
          have hm := same_maxima m m' c (hagree c).2.2.2.2.2.1
          ⟨((h c).2 Cert.KernelIdeal.main_v0_0 (Pipeline.mem_restRefs_of _ (by decide) (by decide))).trans
              ((exit_value m c _).trans (Agree.iou_loss m m' c _ hs hm)),
           ((h c).2 Cert.KernelIdeal.main_v0_1 (Pipeline.mem_restRefs_of _ (by decide) (by decide))).trans
              ((exit_value m c _).trans (Agree.cls_loss m m' c _ hs hm)),
           Cert.KernelIdeal.Region.kept_of_post m r h c⟩) (Cert.KernelIdeal.Region.run_main m ρ),
        (θ_run Cert.ReferenceIdeal.defs _ _).mono (fun r h c =>
          ⟨h c Cert.ReferenceIdeal.main_v79, h c Cert.ReferenceIdeal.main_v82, Cert.ReferenceIdeal.Fold.args_kept m' r h c⟩) (Cert.ReferenceIdeal.ValueP.run_fold m' ρ')⟩⟩

end Cert.Proof

end
